-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1000x91 : Shape := ⟨3, ![16, 1000, 91]⟩
abbrev S16x1000x4 : Shape := ⟨3, ![16, 1000, 4]⟩
abbrev S2048x4 : Shape := ⟨2, ![2048, 4]⟩
abbrev S2048 : Shape := ⟨1, ![2048]⟩
abbrev S_ : Shape := ⟨0, ![]⟩

class Facts : Prop where
  bcast_S_S16x1000x91 : S_.BroadcastsInDim S16x1000x91 (![] : Fin 0 → Fin S16x1000x91.rank)
  reducesTo_S16x1000x91_S_d0_1_2 : S16x1000x91.ReducesTo [0, 1, 2] S_
  h_S_ : 0 < S_.numel
  bcast_S_S16x1000x4 : S_.BroadcastsInDim S16x1000x4 (![] : Fin 0 → Fin S16x1000x4.rank)
  reducesTo_S16x1000x4_S_d0_1_2 : S16x1000x4.ReducesTo [0, 1, 2] S_
  bcast_S_S2048x4 : S_.BroadcastsInDim S2048x4 (![] : Fin 0 → Fin S2048x4.rank)
  reducesTo_S2048x4_S_d0_1 : S2048x4.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg3 : IVec S2048 32) (main_v13 : IVec S_ 1) (main_v15 : IVec S2048 1) (main_c_5 : IVec S_ 32) : IVec S_ 1 :=
  let main_v16 : IVec S2048 32 := broadcastInDim S2048 ![] bcast_S_S2048 main_c_5
  let main_v17 : IVec S2048 1 := cmpi .slt main_arg3 main_v16
  let main_v18 : IVec S2048 1 := andi main_v15 main_v17
  let main_c_6 : IVec S_ 1 := constantI S_ 1 1#1
  let main_v19 : IVec S_ 1 := (fun x v => Host.reduce IntOp.andi x v reducesTo_S2048_S_d0 h_S_) main_v18 main_c_6
  let main_v20 : IVec S_ 1 := andi main_v13 main_v19
  main_v20

def fn {F : FTy → Type} [FloatOps F] (main_arg0 : FVec F S16x1000x91 .f32) (main_arg1 : FVec F S16x1000x4 .f32) (main_arg2 : FVec F S2048x4 .f32) (main_arg3 : IVec S2048 32) : IVec S_ 1 :=
  let main_v0 : FVec F S16x1000x91 .f32 := Host.absf main_arg0
  let main_cst : FVec F S_ .f32 := constant S_ .f32 0x7F800000#32
  let main_v1 : FVec F S16x1000x91 .f32 := broadcastInDim S16x1000x91 ![] bcast_S_S16x1000x91 main_cst
  let main_v2 : IVec S16x1000x91 1 := cmpf .olt main_v0 main_v1
  let main_c : IVec S_ 1 := constantI S_ 1 1#1
  let main_v3 : IVec S_ 1 := (fun x v => Host.reduce IntOp.andi x v reducesTo_S16x1000x91_S_d0_1_2 h_S_) main_v2 main_c
  let main_v4 : FVec F S16x1000x4 .f32 := Host.absf main_arg1
  let main_cst_0 : FVec F S_ .f32 := constant S_ .f32 0x7F800000#32
  let main_v5 : FVec F S16x1000x4 .f32 := broadcastInDim S16x1000x4 ![] bcast_S_S16x1000x4 main_cst_0
  let main_v6 : IVec S16x1000x4 1 := cmpf .olt main_v4 main_v5
  let main_c_1 : IVec S_ 1 := constantI S_ 1 1#1
  let main_v7 : IVec S_ 1 := (fun x v => Host.reduce IntOp.andi x v reducesTo_S16x1000x4_S_d0_1_2 h_S_) main_v6 main_c_1
  let main_v8 : IVec S_ 1 := andi main_v3 main_v7
  let main_v9 : FVec F S2048x4 .f32 := Host.absf main_arg2
  let main_cst_2 : FVec F S_ .f32 := constant S_ .f32 0x7F800000#32
  let main_v10 : FVec F S2048x4 .f32 := broadcastInDim S2048x4 ![] bcast_S_S2048x4 main_cst_2
  let main_v11 : IVec S2048x4 1 := cmpf .olt main_v9 main_v10
  let main_c_3 : IVec S_ 1 := constantI S_ 1 1#1
  let main_v12 : IVec S_ 1 := (fun x v => Host.reduce IntOp.andi x v reducesTo_S2048x4_S_d0_1 h_S_) main_v11 main_c_3
  let main_v13 : IVec S_ 1 := andi main_v8 main_v12
  let main_c_4 : IVec S_ 32 := constantI S_ 32 0#32
  let main_v14 : IVec S2048 32 := broadcastInDim S2048 ![] bcast_S_S2048 main_c_4
  let main_v15 : IVec S2048 1 := cmpi .sge main_arg3 main_v14
  let main_c_5 : IVec S_ 32 := constantI S_ 32 91#32
  fn_part1 (F := F) main_arg3 main_v13 main_v15 main_c_5
-- ==== Kernel.lean ====
abbrev S16x1000x91 : Shape := ⟨3, ![16, 1000, 91]⟩
abbrev S16x1000x4 : Shape := ⟨3, ![16, 1000, 4]⟩
abbrev S2048x4 : Shape := ⟨2, ![2048, 4]⟩
abbrev S2048 : Shape := ⟨1, ![2048]⟩
abbrev S16000x91 : Shape := ⟨2, ![16000, 91]⟩
abbrev S16000x4 : Shape := ⟨2, ![16000, 4]⟩
abbrev S4x2048 : Shape := ⟨2, ![4, 2048]⟩
abbrev S2048x1 : Shape := ⟨2, ![2048, 1]⟩
abbrev S1x91 : Shape := ⟨2, ![1, 91]⟩
abbrev S2048x91 : Shape := ⟨2, ![2048, 91]⟩
abbrev S91x2048 : Shape := ⟨2, ![91, 2048]⟩
abbrev S16000x2048 : Shape := ⟨2, ![16000, 2048]⟩
abbrev S1000x91 : Shape := ⟨2, ![1000, 91]⟩
abbrev S1000x4 : Shape := ⟨2, ![1000, 4]⟩
abbrev S4x512 : Shape := ⟨2, ![4, 512]⟩
abbrev S91x512 : Shape := ⟨2, ![91, 512]⟩
abbrev S1000x512 : Shape := ⟨2, ![1000, 512]⟩
abbrev S1000 : Shape := ⟨1, ![1000]⟩
abbrev S1000x1 : Shape := ⟨2, ![1000, 1]⟩
abbrev S1x512 : Shape := ⟨2, ![1, 512]⟩
abbrev S16x1000x2048 : Shape := ⟨3, ![16, 1000, 2048]⟩

abbrev nBuf : Space → Nat
  | .hbm => 16
  | .vmem => 10
  | .smem => 0
  | _ => 0

abbrev bufTy : (tb : Table) → Fin (tcTables nBuf tb) → BufTy
  | .hbm, ⟨0, _⟩ => ⟨S16x1000x91, .f32⟩
  | .hbm, ⟨1, _⟩ => ⟨S16x1000x4, .f32⟩
  | .hbm, ⟨2, _⟩ => ⟨S2048x4, .f32⟩
  | .hbm, ⟨3, _⟩ => ⟨S2048, .i32⟩
  | .hbm, ⟨4, _⟩ => ⟨S16000x91, .f32⟩
  | .hbm, ⟨5, _⟩ => ⟨S16000x4, .f32⟩
  | .hbm, ⟨6, _⟩ => ⟨S4x2048, .f32⟩
  | .hbm, ⟨7, _⟩ => ⟨S2048x1, .i32⟩
  | .hbm, ⟨8, _⟩ => ⟨S1x91, .i32⟩
  | .hbm, ⟨9, _⟩ => ⟨S2048x91, .i32⟩
  | .hbm, ⟨10, _⟩ => ⟨S2048x91, .i32⟩
  | .hbm, ⟨11, _⟩ => ⟨S2048x91, .i1⟩
  | .hbm, ⟨12, _⟩ => ⟨S2048x91, .bf16⟩
  | .hbm, ⟨13, _⟩ => ⟨S91x2048, .bf16⟩
  | .hbm, ⟨14, _⟩ => ⟨S16000x2048, .f32⟩
  | .hbm, ⟨15, _⟩ => ⟨S16x1000x2048, .f32⟩
  | .local _ .vmem, ⟨0, _⟩ => ⟨S1000x91, .f32⟩
  | .local _ .vmem, ⟨1, _⟩ => ⟨S1000x91, .f32⟩
  | .local _ .vmem, ⟨2, _⟩ => ⟨S1000x4, .f32⟩
  | .local _ .vmem, ⟨3, _⟩ => ⟨S1000x4, .f32⟩
  | .local _ .vmem, ⟨4, _⟩ => ⟨S4x512, .f32⟩
  | .local _ .vmem, ⟨5, _⟩ => ⟨S4x512, .f32⟩
  | .local _ .vmem, ⟨6, _⟩ => ⟨S91x512, .bf16⟩
  | .local _ .vmem, ⟨7, _⟩ => ⟨S91x512, .bf16⟩
  | .local _ .vmem, ⟨8, _⟩ => ⟨S1000x512, .f32⟩
  | .local _ .vmem, ⟨9, _⟩ => ⟨S1000x512, .f32⟩
  | _, _ => ⟨S16x1000x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1000x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S91x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S16x1000x91_S16000x91 : S16x1000x91.ShapeCasts S16000x91
  shapeCasts_S16x1000x4_S16000x4 : S16x1000x4.ShapeCasts S16000x4
  transposes_S2048x4_S4x2048_1_0 : S2048x4.Transposes [1, 0] S4x2048
  bcast_S2048_S2048x1_0 : S2048.BroadcastsInDim S2048x1 (![0] : Fin 1 → Fin S2048x1.rank)
  bcast_S2048x1_S2048x91_0_1 : S2048x1.BroadcastsInDim S2048x91 (![0, 1] : Fin 2 → Fin S2048x91.rank)
  bcast_S1x91_S2048x91_0_1 : S1x91.BroadcastsInDim S2048x91 (![0, 1] : Fin 2 → Fin S2048x91.rank)
  transposes_S2048x91_S91x2048_1_0 : S2048x91.Transposes [1, 0] S91x2048
  inb_S1000x91_S1000x91_0_0 : ∀ a, (![0, 0] : Fin 2 → Nat) a + S1000x91.size a ≤ S1000x91.size a
  h_S1000x91 : 0 < S1000x91.numel
  shapeCasts_S1000x91_S1000x91 : S1000x91.ShapeCasts S1000x91
  reduces_S1000x91_S1000 : S1000x91.Reduces [1] S1000
  shapeCasts_S1000_S1000x1 : S1000.ShapeCasts S1000x1
  broadcasts_S1000x1_S1000x91 : S1000x1.Broadcasts S1000x91
  bitsLt_bf16_f32 : FTy.bits .bf16 < FTy.bits .f32
  inb_S91x512_S91x512_0_0 : ∀ a, (![0, 0] : Fin 2 → Nat) a + S91x512.size a ≤ S91x512.size a
  h_S91x512 : 0 < S91x512.numel
  shapeCasts_S91x512_S91x512 : S91x512.ShapeCasts S91x512
  inb_S1000x4_S1000x4_0_0 : ∀ a, (![0, 0] : Fin 2 → Nat) a + S1000x4.size a ≤ S1000x4.size a
  h_S1000x4 : 0 < S1000x4.numel
  shapeCasts_S1000x4_S1000x4 : S1000x4.ShapeCasts S1000x4
  slices_S1000x4_o0_0_S1000x1 : S1000x4.Slices ![0, 0] S1000x1
  slices_S1000x4_o0_1_S1000x1 : S1000x4.Slices ![0, 1] S1000x1
  slices_S1000x4_o0_2_S1000x1 : S1000x4.Slices ![0, 2] S1000x1
  slices_S1000x4_o0_3_S1000x1 : S1000x4.Slices ![0, 3] S1000x1
  inb_S4x512_S4x512_0_0 : ∀ a, (![0, 0] : Fin 2 → Nat) a + S4x512.size a ≤ S4x512.size a
  h_S4x512 : 0 < S4x512.numel
  shapeCasts_S4x512_S4x512 : S4x512.ShapeCasts S4x512
  slices_S4x512_o0_0_S1x512 : S4x512.Slices ![0, 0] S1x512
  slices_S4x512_o1_0_S1x512 : S4x512.Slices ![1, 0] S1x512
  slices_S4x512_o2_0_S1x512 : S4x512.Slices ![2, 0] S1x512
  slices_S4x512_o3_0_S1x512 : S4x512.Slices ![3, 0] S1x512
  broadcasts_S1000x1_S1000x512 : S1000x1.Broadcasts S1000x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  shapeCasts_S16000x2048_S16x1000x2048 : S16000x2048.ShapeCasts S16x1000x2048
  dot_S1000x91_S91x512_S1000x512_1_0_0_1_n_n_wf : DotDims.WF S1000x91 S91x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x91.size a ≤ S16000x91.size a
  hwx0_0 : ∀ i : grid0.Coords, EltTy.bits .f32 = 32 ∨ (Rect.block (s := S16000x91) S1000x91.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x4.size a ≤ S16000x4.size a
  hwx0_1 : ∀ i : grid0.Coords, EltTy.bits .f32 = 32 ∨ (Rect.block (s := S16000x4) S1000x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x2048.size a
  hwx0_2 : ∀ i : grid0.Coords, EltTy.bits .f32 = 32 ∨ (Rect.block (s := S4x2048) S4x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S91x512.size a ≤ S91x2048.size a
  hwx0_3 : ∀ i : grid0.Coords, EltTy.bits .bf16 = 32 ∨ (Rect.block (s := S91x2048) S91x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x512.size a ≤ S16000x2048.size a
  hwx0_4 : ∀ i : grid0.Coords, EltTy.bits .f32 = 32 ∨ (Rect.block (s := S16000x2048) S1000x512.size (cc0_transform_4 i) (hinb0_4 i)).WholeWords (EltTy.packing .f32)

variable [Facts₀]

def dot_S1000x91_S91x512_S1000x512_1_0_0_1_n_n : DotDims S1000x91 S91x512 S1000x512 where
  lhsContracting := [1]
  rhsContracting := [0]
  lhsNonContracting := [0]
  rhsNonContracting := [1]
  lhsBatch := []
  rhsBatch := []
  wf := dot_S1000x91_S91x512_S1000x512_1_0_0_1_n_n_wf

abbrev win0_0 : Pipeline.Window sig grid0 :=
  Pipeline.Window.ofSpec (Memref.whole main_v0) S1000x91.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S91x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1000x91 : Shape := ⟨3, ![16, 1000, 91]⟩
abbrev S16x1000x4 : Shape := ⟨3, ![16, 1000, 4]⟩
abbrev S2048x4 : Shape := ⟨2, ![2048, 4]⟩
abbrev S2048 : Shape := ⟨1, ![2048]⟩
abbrev S16000x91 : Shape := ⟨2, ![16000, 91]⟩
abbrev S_ : Shape := ⟨0, ![]⟩
abbrev S16000 : Shape := ⟨1, ![16000]⟩
abbrev S16000x1 : Shape := ⟨2, ![16000, 1]⟩
abbrev S16000x4 : Shape := ⟨2, ![16000, 4]⟩
abbrev S2048x1 : Shape := ⟨2, ![2048, 1]⟩
abbrev S16000x2048 : Shape := ⟨2, ![16000, 2048]⟩
abbrev S16000x1x4 : Shape := ⟨3, ![16000, 1, 4]⟩
abbrev S1x2048x4 : Shape := ⟨3, ![1, 2048, 4]⟩
abbrev S16000x2048x4 : Shape := ⟨3, ![16000, 2048, 4]⟩
abbrev S16000x2 : Shape := ⟨2, ![16000, 2]⟩
abbrev S16000x1x2 : Shape := ⟨3, ![16000, 1, 2]⟩
abbrev S2048x2 : Shape := ⟨2, ![2048, 2]⟩
abbrev S1x2048x2 : Shape := ⟨3, ![1, 2048, 2]⟩
abbrev S16000x2048x2 : Shape := ⟨3, ![16000, 2048, 2]⟩
abbrev S16000x2048x1 : Shape := ⟨3, ![16000, 2048, 1]⟩
abbrev S1x2048 : Shape := ⟨2, ![1, 2048]⟩
abbrev S16x1000x2048 : Shape := ⟨3, ![16, 1000, 2048]⟩

abbrev nBuf : Space → Nat
  | .hbm => 152
  | .vmem => 0
  | .smem => 0
  | _ => 0

abbrev hbmTy0_0 (i : Nat) : BufTy := match i % 128 with
  | 0 => ⟨S16x1000x91, .f32⟩
  | 1 => ⟨S16x1000x4, .f32⟩
  | 2 => ⟨S2048x4, .f32⟩
  | 3 => ⟨S2048, .i32⟩
  | 4 => ⟨S16000x91, .f32⟩
  | 5 => ⟨S_, .f32⟩
  | 6 => ⟨S16000, .f32⟩
  | 7 => ⟨S_, .f32⟩
  | 8 => ⟨S16000, .f32⟩
  | 9 => ⟨S16000, .f32⟩
  | 10 => ⟨S16000x1, .f32⟩
  | 11 => ⟨S16000x91, .f32⟩
  | 12 => ⟨S16000x91, .f32⟩
  | 13 => ⟨S16000x91, .f32⟩
  | 14 => ⟨S_, .f32⟩
  | 15 => ⟨S16000, .f32⟩
  | 16 => ⟨S16000x1, .f32⟩
  | 17 => ⟨S16000x91, .f32⟩
  | 18 => ⟨S16000x91, .f32⟩
  | 19 => ⟨S16000x4, .f32⟩
  | 20 => ⟨S16000x1, .f32⟩
  | 21 => ⟨S16000x1, .f32⟩
  | 22 => ⟨S16000x1, .f32⟩
  | 23 => ⟨S16000x1, .f32⟩
  | 24 => ⟨S_, .f32⟩
  | 25 => ⟨S16000x1, .f32⟩
  | 26 => ⟨S16000x1, .f32⟩
  | 27 => ⟨S16000x1, .f32⟩
  | 28 => ⟨S_, .f32⟩
  | 29 => ⟨S16000x1, .f32⟩
  | 30 => ⟨S16000x1, .f32⟩
  | 31 => ⟨S16000x1, .f32⟩
  | 32 => ⟨S_, .f32⟩
  | 33 => ⟨S16000x1, .f32⟩
  | 34 => ⟨S16000x1, .f32⟩
  | 35 => ⟨S16000x1, .f32⟩
  | 36 => ⟨S_, .f32⟩
  | 37 => ⟨S16000x1, .f32⟩
  | 38 => ⟨S16000x1, .f32⟩
  | 39 => ⟨S16000x1, .f32⟩
  | 40 => ⟨S16000x4, .f32⟩
  | 41 => ⟨S_, .i32⟩
  | 42 => ⟨S2048, .i32⟩
  | 43 => ⟨S2048, .i1⟩
  | 44 => ⟨S_, .i32⟩
  | 45 => ⟨S2048, .i32⟩
  | 46 => ⟨S2048, .i32⟩
  | 47 => ⟨S2048, .i32⟩
  | 48 => ⟨S2048x1, .i32⟩
  | 49 => ⟨S16000x2048, .f32⟩
  | 50 => ⟨S16000x2048, .f32⟩
  | 51 => ⟨S16000x1x4, .f32⟩
  | 52 => ⟨S1x2048x4, .f32⟩
  | 53 => ⟨S16000x2048x4, .f32⟩
  | 54 => ⟨S16000x2048x4, .f32⟩
  | 55 => ⟨S16000x2048x4, .f32⟩
  | 56 => ⟨S16000x2048x4, .f32⟩
  | 57 => ⟨S_, .f32⟩
  | 58 => ⟨S16000x2048, .f32⟩
  | 59 => ⟨S16000x1, .f32⟩
  | 60 => ⟨S16000, .f32⟩
  | 61 => ⟨S16000x1, .f32⟩
  | 62 => ⟨S16000, .f32⟩
  | 63 => ⟨S16000, .f32⟩
  | 64 => ⟨S16000x1, .f32⟩
  | 65 => ⟨S16000, .f32⟩
  | 66 => ⟨S16000x1, .f32⟩
  | 67 => ⟨S16000, .f32⟩
  | 68 => ⟨S16000, .f32⟩
  | 69 => ⟨S16000, .f32⟩
  | 70 => ⟨S2048x1, .f32⟩
  | 71 => ⟨S2048, .f32⟩
  | 72 => ⟨S2048x1, .f32⟩
  | 73 => ⟨S2048, .f32⟩
  | 74 => ⟨S2048, .f32⟩
  | 75 => ⟨S2048x1, .f32⟩
  | 76 => ⟨S2048, .f32⟩
  | 77 => ⟨S2048x1, .f32⟩
  | 78 => ⟨S2048, .f32⟩
  | 79 => ⟨S2048, .f32⟩
  | 80 => ⟨S2048, .f32⟩
  | 81 => ⟨S16000x2, .f32⟩
  | 82 => ⟨S16000x1x2, .f32⟩
  | 83 => ⟨S2048x2, .f32⟩
  | 84 => ⟨S1x2048x2, .f32⟩
  | 85 => ⟨S16000x2048x2, .f32⟩
  | 86 => ⟨S16000x2048x2, .f32⟩
  | 87 => ⟨S16000x2048x2, .f32⟩
  | 88 => ⟨S16000x2, .f32⟩
  | 89 => ⟨S16000x1x2, .f32⟩
  | 90 => ⟨S2048x2, .f32⟩
  | 91 => ⟨S1x2048x2, .f32⟩
  | 92 => ⟨S16000x2048x2, .f32⟩
  | 93 => ⟨S16000x2048x2, .f32⟩
  | 94 => ⟨S16000x2048x2, .f32⟩
  | 95 => ⟨S16000x2048x2, .f32⟩
  | 96 => ⟨S_, .f32⟩
  | 97 => ⟨S_, .f32⟩
  | 98 => ⟨S16000x2048x2, .f32⟩
  | 99 => ⟨S16000x2048x2, .f32⟩
  | 100 => ⟨S16000x2048x1, .f32⟩
  | 101 => ⟨S16000x2048, .f32⟩
  | 102 => ⟨S16000x2048x1, .f32⟩
  | 103 => ⟨S16000x2048, .f32⟩
  | 104 => ⟨S16000x2048, .f32⟩
  | 105 => ⟨S16000x1, .f32⟩
  | 106 => ⟨S1x2048, .f32⟩
  | 107 => ⟨S16000x2048, .f32⟩
  | 108 => ⟨S16000x2048, .f32⟩
  | 109 => ⟨S16000x2048, .f32⟩
  | 110 => ⟨S16000x2048, .f32⟩
  | 111 => ⟨S16000x2048, .f32⟩
  | 112 => ⟨S16000x2, .f32⟩
  | 113 => ⟨S16000x1x2, .f32⟩
  | 114 => ⟨S2048x2, .f32⟩
  | 115 => ⟨S1x2048x2, .f32⟩
  | 116 => ⟨S16000x2048x2, .f32⟩
  | 117 => ⟨S16000x2048x2, .f32⟩
  | 118 => ⟨S16000x2048x2, .f32⟩
  | 119 => ⟨S16000x2, .f32⟩
  | 120 => ⟨S16000x1x2, .f32⟩
  | 121 => ⟨S2048x2, .f32⟩
  | 122 => ⟨S1x2048x2, .f32⟩
  | 123 => ⟨S16000x2048x2, .f32⟩
  | 124 => ⟨S16000x2048x2, .f32⟩
  | 125 => ⟨S16000x2048x2, .f32⟩
  | 126 => ⟨S16000x2048x2, .f32⟩
  | 127 => ⟨S_, .f32⟩
  | _ => ⟨S16x1000x91, .f32⟩

abbrev hbmTy0_1 (i : Nat) : BufTy := match i % 128 with
  | 0 => ⟨S_, .f32⟩
  | 1 => ⟨S16000x2048x2, .f32⟩
  | 2 => ⟨S16000x2048x2, .f32⟩
  | 3 => ⟨S16000x2048x1, .f32⟩
  | 4 => ⟨S16000x2048, .f32⟩
  | 5 => ⟨S16000x2048x1, .f32⟩
  | 6 => ⟨S16000x2048, .f32⟩
  | 7 => ⟨S16000x2048, .f32⟩
  | 8 => ⟨S16000x2048, .f32⟩
  | 9 => ⟨S16000x2048, .f32⟩
  | 10 => ⟨S16000x2048, .f32⟩
  | 11 => ⟨S16000x2048, .f32⟩
  | 12 => ⟨S_, .f32⟩
  | 13 => ⟨S16000x2048, .f32⟩
  | 14 => ⟨S16000x2048, .f32⟩
  | 15 => ⟨S_, .f32⟩
  | 16 => ⟨S16000x2048, .f32⟩
  | 17 => ⟨S16000x2048, .f32⟩
  | 18 => ⟨S16000x2048, .f32⟩
  | 19 => ⟨S_, .f32⟩
  | 20 => ⟨S16000x2048, .f32⟩
  | 21 => ⟨S16000x2048, .f32⟩
  | 22 => ⟨S16000x2048, .f32⟩
  | 23 => ⟨S16x1000x2048, .f32⟩
  | _ => ⟨S16x1000x91, .f32⟩

abbrev hbmTy (i : Nat) : BufTy := match i / 128 with
  | 0 => hbmTy0_0 i
  | 1 => hbmTy0_1 i
  | _ => ⟨S16x1000x91, .f32⟩

abbrev bufTy : (tb : Table) → Fin (tcTables nBuf tb) → BufTy
  | .hbm, ⟨i, _⟩ => hbmTy i
  | _, _ => ⟨S16x1000x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_cst_8 : Ref sig .tc := ⟨.hbm, 96, rfl⟩
abbrev main_call0_v0 : Ref sig .tc := ⟨.hbm, 97, rfl⟩
abbrev main_call0_v1 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_cst_9 : Ref sig .tc := ⟨.hbm, 127, rfl⟩
abbrev main_call1_v0 : Ref sig .tc := ⟨.hbm, 128, rfl⟩
abbrev main_call1_v1 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_cst_10 : Ref sig .tc := ⟨.hbm, 140, rfl⟩
abbrev main_v120 : Ref sig .tc := ⟨.hbm, 141, rfl⟩
abbrev main_v121 : Ref sig .tc := ⟨.hbm, 142, rfl⟩
abbrev main_cst_11 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_cst_12 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩

abbrev nD : Nat := 1
abbrev τ : Topo := Topo.v7x

variable {F : FTy → Type} [FloatOps F]

class Facts₀ : Prop where
  shapeCasts_S16x1000x91_S16000x91 : S16x1000x91.ShapeCasts S16000x91
  reducesTo_S16000x91_S16000_d1 : S16000x91.ReducesTo [1] S16000
  h_S_ : 0 < S_.numel
  bcast_S_S16000 : S_.BroadcastsInDim S16000 (![] : Fin 0 → Fin S16000.rank)
  bcast_S16000_S16000x1_0 : S16000.BroadcastsInDim S16000x1 (![0] : Fin 1 → Fin S16000x1.rank)
  bcast_S16000x1_S16000x91_0_1 : S16000x1.BroadcastsInDim S16000x91 (![0, 1] : Fin 2 → Fin S16000x91.rank)
  shapeCasts_S16x1000x4_S16000x4 : S16x1000x4.ShapeCasts S16000x4
  slices_S16000x4_S16000x1_0_0 : S16000x4.Slices ![0, 0] S16000x1
  slices_S16000x4_S16000x1_0_1 : S16000x4.Slices ![0, 1] S16000x1
  slices_S16000x4_S16000x1_0_2 : S16000x4.Slices ![0, 2] S16000x1
  slices_S16000x4_S16000x1_0_3 : S16000x4.Slices ![0, 3] S16000x1
  bcast_S_S16000x1 : S_.BroadcastsInDim S16000x1 (![] : Fin 0 → Fin S16000x1.rank)
  concatenates_S16000x1_S16000x1_S16000x1_S16000x1_S16000x4_d1 : Shape.Concatenates [S16000x1, S16000x1, S16000x1, S16000x1] S16000x4 1
  bcast_S_S2048 : S_.BroadcastsInDim S2048 (![] : Fin 0 → Fin S2048.rank)
  bcast_S2048_S2048x1_0 : S2048.BroadcastsInDim S2048x1 (![0] : Fin 1 → Fin S2048x1.rank)
  bcast_S16000x4_S16000x1x4_0_2 : S16000x4.BroadcastsInDim S16000x1x4 (![0, 2] : Fin 2 → Fin S16000x1x4.rank)
  bcast_S2048x4_S1x2048x4_1_2 : S2048x4.BroadcastsInDim S1x2048x4 (![1, 2] : Fin 2 → Fin S1x2048x4.rank)
  bcast_S16000x1x4_S16000x2048x4_0_1_2 : S16000x1x4.BroadcastsInDim S16000x2048x4 (![0, 1, 2] : Fin 3 → Fin S16000x2048x4.rank)
  bcast_S1x2048x4_S16000x2048x4_0_1_2 : S1x2048x4.BroadcastsInDim S16000x2048x4 (![0, 1, 2] : Fin 3 → Fin S16000x2048x4.rank)
  reducesTo_S16000x2048x4_S16000x2048_d2 : S16000x2048x4.ReducesTo [2] S16000x2048
  shapeCasts_S16000x1_S16000 : S16000x1.ShapeCasts S16000
  slices_S2048x4_S2048x1_0_2 : S2048x4.Slices ![0, 2] S2048x1
  shapeCasts_S2048x1_S2048 : S2048x1.ShapeCasts S2048
  slices_S2048x4_S2048x1_0_0 : S2048x4.Slices ![0, 0] S2048x1
  slices_S2048x4_S2048x1_0_3 : S2048x4.Slices ![0, 3] S2048x1
  slices_S2048x4_S2048x1_0_1 : S2048x4.Slices ![0, 1] S2048x1
  slices_S16000x4_S16000x2_0_0 : S16000x4.Slices ![0, 0] S16000x2
  bcast_S16000x2_S16000x1x2_0_2 : S16000x2.BroadcastsInDim S16000x1x2 (![0, 2] : Fin 2 → Fin S16000x1x2.rank)
  slices_S2048x4_S2048x2_0_0 : S2048x4.Slices ![0, 0] S2048x2
  bcast_S2048x2_S1x2048x2_1_2 : S2048x2.BroadcastsInDim S1x2048x2 (![1, 2] : Fin 2 → Fin S1x2048x2.rank)
  bcast_S16000x1x2_S16000x2048x2_0_1_2 : S16000x1x2.BroadcastsInDim S16000x2048x2 (![0, 1, 2] : Fin 3 → Fin S16000x2048x2.rank)
  bcast_S1x2048x2_S16000x2048x2_0_1_2 : S1x2048x2.BroadcastsInDim S16000x2048x2 (![0, 1, 2] : Fin 3 → Fin S16000x2048x2.rank)
  slices_S16000x4_S16000x2_0_2 : S16000x4.Slices ![0, 2] S16000x2
  slices_S2048x4_S2048x2_0_2 : S2048x4.Slices ![0, 2] S2048x2
  bcast_S_S16000x2048x2 : S_.BroadcastsInDim S16000x2048x2 (![] : Fin 0 → Fin S16000x2048x2.rank)
  slices_S16000x2048x2_S16000x2048x1_0_0_0 : S16000x2048x2.Slices ![0, 0, 0] S16000x2048x1
  shapeCasts_S16000x2048x1_S16000x2048 : S16000x2048x1.ShapeCasts S16000x2048
  slices_S16000x2048x2_S16000x2048x1_0_0_1 : S16000x2048x2.Slices ![0, 0, 1] S16000x2048x1
  bcast_S2048_S1x2048_1 : S2048.BroadcastsInDim S1x2048 (![1] : Fin 1 → Fin S1x2048.rank)
  bcast_S16000x1_S16000x2048_0_1 : S16000x1.BroadcastsInDim S16000x2048 (![0, 1] : Fin 2 → Fin S16000x2048.rank)
  bcast_S1x2048_S16000x2048_0_1 : S1x2048.BroadcastsInDim S16000x2048 (![0, 1] : Fin 2 → Fin S16000x2048.rank)
  bcast_S_S16000x2048 : S_.BroadcastsInDim S16000x2048 (![] : Fin 0 → Fin S16000x2048.rank)
  shapeCasts_S16000x2048_S16x1000x2048 : S16000x2048.ShapeCasts S16x1000x2048
  gather_S16000x91_S2048x1_S16000x2048_0_1_n_n_1_1_160001_wf : GatherDims.WF S16000x91 S2048x1 S16000x2048 [0] [1] [] [1] [] 1 ![16000, 1]

variable [Facts₀]

def gather_S16000x91_S2048x1_S16000x2048_0_1_n_n_1_1_160001 : GatherDims S16000x91 S2048x1 S16000x2048 where
  offsetDims := [0]
  collapsedSliceDims := [1]
  operandBatchingDims := []
  startIndicesBatchingDims := []
  startIndexMap := [1]
  indexVectorDim := 1
  sliceSizes := ![16000, 1]
  wf := gather_S16000x91_S2048x1_S16000x2048_0_1_n_n_1_1_160001_wf

class Facts : Prop extends Facts₀ where

variable [Facts]
-- ==== Proof.Spec.lean ====
/-
  The matching cost as a function of one query's data and one target's data, on the extended reals.

  For a query with class logits `lg : Fin 91 → EReal` and box `b = (cx, cy, w, h)`, and a target with box
  `t = (x1, y1, x2, y2)`, the cost is
    5 · ‖xyxy(b) − t‖₁ + 1 · p + 2 · (−GIoU(xyxy(b), t)),
  where `p` is the class term (minus the softmax probability of the target's label). The softmax is the
  shifted one: `exp (lg c − max lg) / Σ c', exp (lg c' − max lg)`, the maximum a fold of `max` from `−∞`.
  Every operation is the exact one of the extended reals; the constants are kept as the f32 words the programs
  print (0, 1/2, 1, 2, 5, −∞), never evaluated except for the zero word.
-/
import Idealize.ShloMosaic.PureOps.Ideal
import Idealize.ShloMosaic.PureOps.Ideal.Laws
import Mathlib.Data.Finset.Fold

noncomputable section

open scoped BigOperators

namespace Cert.MatchCost

open Idealize.ShloMosaic

/-- The f32 words of the constants both programs print. -/
abbrev wZero : EReal := Ideal.ofBits .f32 0x00000000#32
abbrev wHalf : EReal := Ideal.ofBits .f32 0x3F000000#32
abbrev wOne : EReal := Ideal.ofBits .f32 0x3F800000#32
abbrev wTwo : EReal := Ideal.ofBits .f32 0x40000000#32
abbrev wFive : EReal := Ideal.ofBits .f32 0x40A00000#32
abbrev wNegInf : EReal := Ideal.ofBits .f32 0xFF800000#32

/-- The largest logit of a row: the fold of `max` from `−∞` over the 91 classes. -/
def rowMax (lg : Fin 91 → EReal) : EReal := (Finset.univ : Finset (Fin 91)).fold max wNegInf lg

/-- `exp (lg c − max lg)`. -/
def expShift (lg : Fin 91 → EReal) (c : Fin 91) : EReal := Ideal.exp (lg c - rowMax lg)

/-- The softmax probability of class `c`. -/
def softmax (lg : Fin 91 → EReal) (c : Fin 91) : EReal := Ideal.div (expShift lg c) (∑ c' : Fin 91, expShift lg c')

/-- `|x|` as the programs compute it. -/
def absE (x : EReal) : EReal := max x (-x)

/-- The cost of matching a query box `b = (cx, cy, w, h)` with a target box `t = (x1, y1, x2, y2)`, the class
    term `p` given. -/
def boxCost (b t : Fin 4 → EReal) (p : EReal) : EReal :=
  let qx1 := b 0 - wHalf * b 2
  let qy1 := b 1 - wHalf * b 3
  let qx2 := b 0 + wHalf * b 2
  let qy2 := b 1 + wHalf * b 3
  let areaQ := (qx2 - qx1) * (qy2 - qy1)
  let areaT := (t 2 - t 0) * (t 3 - t 1)
  let inter := max wZero (min qx2 (t 2) - max qx1 (t 0)) * max wZero (min qy2 (t 3) - max qy1 (t 1))
  let union := areaQ + areaT - inter
  let iou := Ideal.div inter union
  let areaC := max wZero (max qx2 (t 2) - min qx1 (t 0)) * max wZero (max qy2 (t 3) - min qy1 (t 1))
  let giou := iou - Ideal.div (areaC - union) areaC
  let l1 := absE (qx1 - t 0) + absE (qy1 - t 1) + absE (qx2 - t 2) + absE (qy2 - t 3)
  wFive * l1 + wOne * p + wTwo * (-giou)

/-- The zero word is the extended real `0`. -/
theorem wZero_eq : wZero = 0 := Ideal.ofBits_zero_f32

/-- A kernel's negation `0 − x` is `−x`. -/
theorem wZero_sub (x : EReal) : wZero - x = -x := by rw [wZero_eq, zero_sub]

/-- A host sum's initial zero drops. -/
theorem wZero_add (x : EReal) : wZero + x = x := by rw [wZero_eq, zero_add]

/-- The maximum against `−∞` first, as the host's softmax takes it, changes nothing: the fold starts there. -/
theorem max_wNegInf_rowMax (lg : Fin 91 → EReal) : max wNegInf (rowMax lg) = rowMax lg :=
  max_eq_right ((Finset.le_fold_max _).mpr (Or.inl le_rfl))

/-- A sum against a one-hot column picks one term: `Σ c, f c · [c = k] = f k`. -/
theorem sum_mul_oneHot (f : Fin 91 → EReal) (g : Fin 91 → EReal) (k : Fin 91)
    (hg : ∀ c, g c = if c = k then 1 else 0) : ∑ c : Fin 91, f c * g c = f k := by
  rw [Finset.sum_eq_single k]
  · rw [hg k, if_pos rfl, mul_one]
  · intro c _ hc; rw [hg c, if_neg hc, mul_zero]
  · intro h; exact absurd (Finset.mem_univ k) h

end Cert.MatchCost

end
-- ==== Proof.LibKeepdims.lean ====
/-
  Column forms of the keepdims layout operations read at an index given by coordinates: a vector `[a]` viewed as a
  column `[a, 1]`, and a column `[a, 1]` laid along every column of an `[a, b]` matrix.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.PayBox.lean ====
import proofs.«418606_j32384053412636_1_alg».proof.Proof.Gen.KernelIdeal.Skeleton
import proofs.«418606_j32384053412636_1_alg».proof.Proof.Spec
import proofs.«418606_j32384053412636_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

/-!
  The kernel body's box arithmetic read at one entry. A query row `p` of the box block gives the corner form
  (cx ∓ w/2, cy ∓ h/2) and its area; a column `q` of the transposed target block gives the target's corners; the
  [1000, 512] values are those of the pair (p, q): intersection, union, enclosing box, GIoU and the L1 distance.
-/

namespace Cert.KernelIdeal.Payload

open Cert.KernelIdeal Cert.KernelIdeal.Gen Idealize.ShloMosaic Idealize.ShloMosaic.ValueIdx Cert.MatchCost Cert.LibKeepdims

/-! ## The query box's columns and corners -/

theorem pay4_apply (x1 : Vec Ideal S1000x4 .f32) (p : Fin 1000) (u : Fin 1) :
    k0_pay4 x1 (ix2 p u) = x1 (ix2 p (0 : Fin 4)) := by
  unfold k0_pay4 k0_pay3
  rw [shapeCast_self]
  exact slice2_axis1_apply 0 x1 _ p u 0 (by have : u.val = 0 := by omega
                                            simp [this])

theorem pay5_apply (x1 : Vec Ideal S1000x4 .f32) (p : Fin 1000) (u : Fin 1) :
    k0_pay5 x1 (ix2 p u) = x1 (ix2 p (1 : Fin 4)) := by
  unfold k0_pay5 k0_pay3
  rw [shapeCast_self]
  exact slice2_axis1_apply 1 x1 _ p u 1 (by have : u.val = 0 := by omega
                                            simp [this])

theorem pay6_apply (x1 : Vec Ideal S1000x4 .f32) (p : Fin 1000) (u : Fin 1) :
    k0_pay6 x1 (ix2 p u) = x1 (ix2 p (2 : Fin 4)) := by
  unfold k0_pay6 k0_pay3
  rw [shapeCast_self]
  exact slice2_axis1_apply 2 x1 _ p u 2 (by have : u.val = 0 := by omega
                                            simp [this])

theorem pay7_apply (x1 : Vec Ideal S1000x4 .f32) (p : Fin 1000) (u : Fin 1) :
    k0_pay7 x1 (ix2 p u) = x1 (ix2 p (3 : Fin 4)) := by
  unfold k0_pay7 k0_pay3
  rw [shapeCast_self]
  exact slice2_axis1_apply 3 x1 _ p u 3 (by have : u.val = 0 := by omega
                                            simp [this])

/-- The left edge `cx − w/2`. -/
theorem pay8_apply (x1 : Vec Ideal S1000x4 .f32) (p : Fin 1000) (u : Fin 1) :
    k0_pay8 x1 (ix2 p u) = x1 (ix2 p (0 : Fin 4)) - wHalf * x1 (ix2 p (2 : Fin 4)) := by
  unfold k0_pay8
  show k0_pay4 x1 (ix2 p u) - wHalf * k0_pay6 x1 (ix2 p u) = _
  rw [pay4_apply, pay6_apply]

/-- The top edge `cy − h/2`. -/
theorem pay9_apply (x1 : Vec Ideal S1000x4 .f32) (p : Fin 1000) (u : Fin 1) :
    k0_pay9 x1 (ix2 p u) = x1 (ix2 p (1 : Fin 4)) - wHalf * x1 (ix2 p (3 : Fin 4)) := by
  unfold k0_pay9
  show k0_pay5 x1 (ix2 p u) - wHalf * k0_pay7 x1 (ix2 p u) = _
  rw [pay5_apply, pay7_apply]

/-- The right edge `cx + w/2`. -/
theorem pay10_apply (x1 : Vec Ideal S1000x4 .f32) (p : Fin 1000) (u : Fin 1) :
    k0_pay10 x1 (ix2 p u) = x1 (ix2 p (0 : Fin 4)) + wHalf * x1 (ix2 p (2 : Fin 4)) := by
  unfold k0_pay10
  show k0_pay4 x1 (ix2 p u) + wHalf * k0_pay6 x1 (ix2 p u) = _
  rw [pay4_apply, pay6_apply]

/-- The bottom edge `cy + h/2`. -/
theorem pay11_apply (x1 : Vec Ideal S1000x4 .f32) (p : Fin 1000) (u : Fin 1) :
    k0_pay11 x1 (ix2 p u) = x1 (ix2 p (1 : Fin 4)) + wHalf * x1 (ix2 p (3 : Fin 4)) := by
  unfold k0_pay11
  show k0_pay5 x1 (ix2 p u) + wHalf * k0_pay7 x1 (ix2 p u) = _
  rw [pay5_apply, pay7_apply]

/-- The query box's area, (right − left) · (bottom − top). -/
theorem pay12_apply (x1 : Vec Ideal S1000x4 .f32) (p : Fin 1000) (u : Fin 1) :
    k0_pay12 x1 (ix2 p u) = (k0_pay10 x1 (ix2 p u) - k0_pay8 x1 (ix2 p u)) * (k0_pay11 x1 (ix2 p u) - k0_pay9 x1 (ix2 p u)) := by
  unfold k0_pay12
  rfl

/-! ## The target block's rows -/

theorem pay13_eq (x2 : Vec Ideal S4x512 .f32) : k0_pay13 x2 = x2 := by
  unfold k0_pay13
  exact shapeCast_self x2 _

theorem pay14_apply (x2 : Vec Ideal S4x512 .f32) (u : Fin 1) (q : Fin 512) :
    k0_pay14 x2 (ix2 u q) = x2 (ix2 (0 : Fin 4) q) := by
  unfold k0_pay14
  rw [pay13_eq]
  exact slice2_axis0_apply 0 x2 _ u q 0 (by have : u.val = 0 := by omega
                                            simp [this])

theorem pay15_apply (x2 : Vec Ideal S4x512 .f32) (u : Fin 1) (q : Fin 512) :
    k0_pay15 x2 (ix2 u q) = x2 (ix2 (1 : Fin 4) q) := by
  unfold k0_pay15
  rw [pay13_eq]
  exact slice2_axis0_apply 1 x2 _ u q 1 (by have : u.val = 0 := by omega
                                            simp [this])

theorem pay16_apply (x2 : FVec Ideal S4x512 .f32) (u : Fin 1) (q : Fin 512) :
    k0_pay16 x2 (ix2 u q) = x2 (ix2 (2 : Fin 4) q) := by
  unfold k0_pay16
  exact slice2_axis0_apply 2 x2 _ u q 2 (by have : u.val = 0 := by omega
                                            simp [this])

theorem pay17_apply (x2 : FVec Ideal S4x512 .f32) (u : Fin 1) (q : Fin 512) :
    k0_pay17 x2 (ix2 u q) = x2 (ix2 (3 : Fin 4) q) := by
  unfold k0_pay17
  exact slice2_axis0_apply 3 x2 _ u q 3 (by have : u.val = 0 := by omega
                                            simp [this])

/-! ## The pairwise values -/

/-- A query column laid along the targets, read at a pair. -/
theorem bcol (v : FVec Ideal S1000x1 .f32) (p : Fin 1000) (q : Fin 512) :
    broadcastTo S1000x512 v broadcasts_S1000x1_S1000x512 (ix2 p q) = v (ix2 p (0 : Fin 1)) :=
  broadcastTo_a1_ab_apply v _ p q

/-- A target row laid along the queries, read at a pair. -/
theorem brow (v : FVec Ideal S1x512 .f32) (p : Fin 1000) (q : Fin 512) :
    broadcastTo S1000x512 v broadcasts_S1x512_S1000x512 (ix2 p q) = v (ix2 (0 : Fin 1) q) :=
  broadcastTo_1b_ab_apply v _ p q

/-- GIoU of the pair: IoU minus the share of the enclosing box the union leaves empty. -/
theorem pay18_apply (v25 v28 v31 v34 v37 : FVec Ideal S1000x1 .f32) (v39 : FVec Ideal S4x512 .f32) (v40 v41 : FVec Ideal S1x512 .f32)
    (p : Fin 1000) (q : Fin 512) :
    k0_pay18 v25 v28 v31 v34 v37 v39 v40 v41 (ix2 p q)
      = (let qx1 := v25 (ix2 p (0 : Fin 1))
         let qy1 := v28 (ix2 p (0 : Fin 1))
         let qx2 := v31 (ix2 p (0 : Fin 1))
         let qy2 := v34 (ix2 p (0 : Fin 1))
         let t0 := v40 (ix2 (0 : Fin 1) q)
         let t1 := v41 (ix2 (0 : Fin 1) q)
         let t2 := v39 (ix2 (2 : Fin 4) q)
         let t3 := v39 (ix2 (3 : Fin 4) q)
         let areaT := (t2 - t0) * (t3 - t1)
         let inter := max wZero (min qx2 t2 - max qx1 t0) * max wZero (min qy2 t3 - max qy1 t1)
         let union := v37 (ix2 p (0 : Fin 1)) + areaT - inter
         let areaC := max wZero (max qx2 t2 - min qx1 t0) * max wZero (max qy2 t3 - min qy1 t1)
         Ideal.div inter union - Ideal.div (areaC - union) areaC) := by
  unfold k0_pay18
  simp only [subf_apply, mulf_apply, addf_apply, divf_apply, maximumf_apply, minimumf_apply, broadcast_apply, bcol, brow,
    pay16_apply, pay17_apply]
  rfl

/-- `|left − x1|` of the pair. -/
theorem pay19_apply (v25 : FVec Ideal S1000x1 .f32) (v40 : FVec Ideal S1x512 .f32) (p : Fin 1000) (q : Fin 512) :
    k0_pay19 v25 v40 (ix2 p q) = absE (v25 (ix2 p (0 : Fin 1)) - v40 (ix2 (0 : Fin 1) q)) := by
  unfold k0_pay19
  show FloatOps.absf (broadcastTo S1000x512 v25 broadcasts_S1000x1_S1000x512 (ix2 p q) - broadcastTo S1000x512 v40 broadcasts_S1x512_S1000x512 (ix2 p q)) = _
  rw [bcol, brow]
  rfl

theorem pay20_apply (v28 : FVec Ideal S1000x1 .f32) (p : Fin 1000) (q : Fin 512) :
    k0_pay20 v28 (ix2 p q) = v28 (ix2 p (0 : Fin 1)) := by
  unfold k0_pay20
  exact bcol v28 p q

/-- The stored value of the pair: 5 · L1 + 1 · class + 2 · (0 − GIoU). -/
theorem pay1_apply (v16 : FVec Ideal S1000x512 .f32) (v31 v34 : FVec Ideal S1000x1 .f32) (v41 v42 v43 : FVec Ideal S1x512 .f32)
    (v92 v96 v97 : FVec Ideal S1000x512 .f32) (p : Fin 1000) (q : Fin 512) :
    k0_pay1 v16 v31 v34 v41 v42 v43 v92 v96 v97 (ix2 p q)
      = wFive * (v96 (ix2 p q) + absE (v97 (ix2 p q) - v41 (ix2 (0 : Fin 1) q))
            + absE (v31 (ix2 p (0 : Fin 1)) - v42 (ix2 (0 : Fin 1) q))
            + absE (v34 (ix2 p (0 : Fin 1)) - v43 (ix2 (0 : Fin 1) q)))
          + wOne * v16 (ix2 p q) + wTwo * (wZero - v92 (ix2 p q)) := by
  unfold k0_pay1
  show FloatOps.ofBits .f32 0x40A00000#32 * (v96 (ix2 p q)
        + FloatOps.absf (v97 (ix2 p q) - broadcastTo S1000x512 v41 broadcasts_S1x512_S1000x512 (ix2 p q))
        + FloatOps.absf (broadcastTo S1000x512 v31 broadcasts_S1000x1_S1000x512 (ix2 p q) - broadcastTo S1000x512 v42 broadcasts_S1x512_S1000x512 (ix2 p q))
        + FloatOps.absf (broadcastTo S1000x512 v34 broadcasts_S1000x1_S1000x512 (ix2 p q) - broadcastTo S1000x512 v43 broadcasts_S1x512_S1000x512 (ix2 p q)))
      + FloatOps.ofBits .f32 0x3F800000#32 * v16 (ix2 p q)
      + FloatOps.ofBits .f32 0x40000000#32 * (FloatOps.ofBits .f32 0x00000000#32 - v92 (ix2 p q)) = _
  rw [bcol, bcol, brow, brow, brow]
  rfl

end Cert.KernelIdeal.Payload

end
-- ==== Proof.PayClass.lean ====
import proofs.«418606_j32384053412636_1_alg».proof.Proof.Gen.KernelIdeal.Skeleton
import proofs.«418606_j32384053412636_1_alg».proof.Proof.Spec
import proofs.«418606_j32384053412636_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

/-!
  The kernel body's class term read at one entry. Row `p` of the logits block is turned into its softmax (shifted by
  the row's maximum), and the matrix product with the one-hot block sums, over the 91 classes, the probability of
  class `c` times entry `(c, q)` of that block; the body stores zero minus this sum.
-/

namespace Cert.KernelIdeal.Payload

open Cert.KernelIdeal Cert.KernelIdeal.Gen Idealize.ShloMosaic Idealize.ShloMosaic.ValueIdx Cert.MatchCost Cert.LibKeepdims

/-! ## The product's operand indices, axis by axis -/

theorem lhs_pay2_0 (i : S1000x512.Idx) (q : dot_S1000x91_S91x512_S1000x512_1_0_0_1_n_n.contr.Idx) :
    (dot_S1000x91_S91x512_S1000x512_1_0_0_1_n_n.lhsIdx i q 0).val = (i 0).val := by
  unfold DotDims.lhsIdx
  rw [dif_neg (show ¬(0 : Fin S1000x91.rank) ∈ dot_S1000x91_S91x512_S1000x512_1_0_0_1_n_n.lhsBatch by decide),
    dif_pos (show (0 : Fin S1000x91.rank) ∈ dot_S1000x91_S91x512_S1000x512_1_0_0_1_n_n.lhsNonContracting by decide)]
  rfl

theorem lhs_pay2_1 (i : S1000x512.Idx) (q : dot_S1000x91_S91x512_S1000x512_1_0_0_1_n_n.contr.Idx) :
    (dot_S1000x91_S91x512_S1000x512_1_0_0_1_n_n.lhsIdx i q 1).val = (q ⟨0, by decide⟩).val :=
  dot_S1000x91_S91x512_S1000x512_1_0_0_1_n_n.lhsIdx_val_of_single rfl i q

theorem rhs_pay2_0 (i : S1000x512.Idx) (q : dot_S1000x91_S91x512_S1000x512_1_0_0_1_n_n.contr.Idx) :
    (dot_S1000x91_S91x512_S1000x512_1_0_0_1_n_n.rhsIdx i q 0).val = (q ⟨0, by decide⟩).val :=
  dot_S1000x91_S91x512_S1000x512_1_0_0_1_n_n.rhsIdx_val_of_single rfl i q

theorem rhs_pay2_1 (i : S1000x512.Idx) (q : dot_S1000x91_S91x512_S1000x512_1_0_0_1_n_n.contr.Idx) :
    (dot_S1000x91_S91x512_S1000x512_1_0_0_1_n_n.rhsIdx i q 1).val = (i 1).val := by
  unfold DotDims.rhsIdx
  rw [dif_neg (show ¬(1 : Fin S91x512.rank) ∈ dot_S1000x91_S91x512_S1000x512_1_0_0_1_n_n.rhsBatch by decide),
    dif_pos (show (1 : Fin S91x512.rank) ∈ dot_S1000x91_S91x512_S1000x512_1_0_0_1_n_n.rhsNonContracting by decide)]
  rfl

/-- The product into a zero accumulator, at entry (p, q): the sum over the classes of row `p` times column `q`. -/
theorem matmul_pay2_apply (l : FVec Ideal S1000x91 .bf16) (r : FVec Ideal S91x512 .bf16) (p : Fin 1000) (q : Fin 512) :
    matmul dot_S1000x91_S91x512_S1000x512_1_0_0_1_n_n none l r (constant S1000x512 .f32 0x00000000#32) (ix2 p q)
      = ∑ k : Fin 91, l (ix2 p k) * r (ix2 k q) := by
  show FloatOps.matmul dot_S1000x91_S91x512_S1000x512_1_0_0_1_n_n none l r (constant S1000x512 .f32 0x00000000#32) (ix2 p q) = _
  rw [Ideal.matmul_constant_zero_apply, ← Equiv.sum_comp (contrEquiv1 dot_S1000x91_S91x512_S1000x512_1_0_0_1_n_n 91 rfl rfl).symm]
  refine Finset.sum_congr rfl fun k _ => ?_
  have hk := contrEquiv1_symm_val dot_S1000x91_S91x512_S1000x512_1_0_0_1_n_n 91 rfl rfl k
  have el : dot_S1000x91_S91x512_S1000x512_1_0_0_1_n_n.lhsIdx (ix2 p q)
      ((contrEquiv1 dot_S1000x91_S91x512_S1000x512_1_0_0_1_n_n 91 rfl rfl).symm k) = ix2 p k := funext fun a => Fin.ext (by
    match a with
    | ⟨0, _⟩ => exact lhs_pay2_0 _ _
    | ⟨1, _⟩ => exact (lhs_pay2_1 _ _).trans hk)
  have er : dot_S1000x91_S91x512_S1000x512_1_0_0_1_n_n.rhsIdx (ix2 p q)
      ((contrEquiv1 dot_S1000x91_S91x512_S1000x512_1_0_0_1_n_n 91 rfl rfl).symm k) = ix2 k q := funext fun a => Fin.ext (by
    match a with
    | ⟨0, _⟩ => exact (rhs_pay2_0 _ _).trans hk
    | ⟨1, _⟩ => exact rhs_pay2_1 _ _)
  rw [el, er]

/-! ## The row reductions -/

/-- The row maximum at row `p`: the fold of `max` from the accumulator's `−∞` over the row's 91 entries. -/
theorem rowmax_apply (x : FVec Ideal S1000x91 .f32) (hφ : FKind.Formats .f32)
    (hacc : (0xFF800000#32 : BitVec 32) = FKind.maximumf.neutral .f32 hφ) (p : Fin 1000) :
    multiReduction .maximumf [1] S1000 x 0xFF800000#32 reduces_S1000x91_S1000 hφ hacc (ix1 p) = rowMax (fun c => x (ix2 p c)) := by
  refine (Ideal.multiReduction_maximumf_single x 0xFF800000#32 reduces_S1000x91_S1000 hφ hacc (ix1 p)).trans ?_
  unfold rowMax
  have e : (x ∘ reduces_S1000x91_S1000.lift (ix1 p)) = fun c : Fin 91 => x (ix2 p c) := funext fun c =>
    congrArg x (funext fun a => Fin.ext (by
      match a with
      | ⟨0, _⟩ => rfl
      | ⟨1, _⟩ => rfl))
  rw [e]
  rfl

/-- The row sum at row `p`: the sum of the row's 91 entries (the accumulator is the neutral zero). -/
theorem rowsum_apply (x : FVec Ideal S1000x91 .f32) (hφ : FKind.Formats .f32)
    (hacc : (0x00000000#32 : BitVec 32) = FKind.add.neutral .f32 hφ) (p : Fin 1000) :
    multiReduction .add [1] S1000 x 0x00000000#32 reduces_S1000x91_S1000 hφ hacc (ix1 p) = ∑ c : Fin 91, x (ix2 p c) := by
  refine (Ideal.multiReduction_add_single x 0x00000000#32 reduces_S1000x91_S1000 hφ hacc (ix1 p)).trans ?_
  refine Finset.sum_congr rfl fun c _ => ?_
  exact congrArg x (funext fun a => Fin.ext (by
    match a with
    | ⟨0, _⟩ => rfl
    | ⟨1, _⟩ => rfl))

/-- A row statistic `[1000]` viewed as a column and laid along the classes, read at (p, c). -/
theorem keep_apply (v : FVec Ideal S1000 .f32) (p : Fin 1000) (c : Fin 91) :
    broadcastTo S1000x91 (shapeCast S1000x1 v shapeCasts_S1000_S1000x1) broadcasts_S1000x1_S1000x91 (ix2 p c) = v (ix1 p) := by
  refine (broadcastTo_a1_ab_apply _ _ p c).trans ?_
  exact shapeCast_a_a1_apply v _ p 0

/-! ## The class term -/

/-- The stored class term at (p, q): zero minus the sum over the classes of the softmax of row `p` times the one-hot
    block's entry (c, q). -/
theorem pay2_apply (x0 : Vec Ideal S1000x91 .f32) (x3 : Vec Ideal S91x512 .bf16) (p : Fin 1000) (q : Fin 512) :
    k0_pay2 x0 x3 (ix2 p q) = wZero - ∑ c : Fin 91, softmax (fun c => x0 (ix2 p c)) c * x3 (ix2 c q) := by
  unfold k0_pay2
  rw [shapeCast_self, shapeCast_self]
  show wZero - matmul (F := Ideal) dot_S1000x91_S91x512_S1000x512_1_0_0_1_n_n none _ x3 (constant S1000x512 .f32 0x00000000#32) (ix2 p q) = _
  rw [matmul_pay2_apply]
  refine congrArg (wZero - ·) (Finset.sum_congr rfl fun c _ => congrArg (· * x3 (ix2 c q)) ?_)
  show Ideal.div (Ideal.exp (x0 (ix2 p c) - broadcastTo S1000x91 (shapeCast S1000x1 _ shapeCasts_S1000_S1000x1) broadcasts_S1000x1_S1000x91 (ix2 p c)))
      (broadcastTo S1000x91 (shapeCast S1000x1 _ shapeCasts_S1000_S1000x1) broadcasts_S1000x1_S1000x91 (ix2 p c)) = _
  rw [keep_apply, keep_apply]
  unfold softmax expShift
  refine congrArg₂ Ideal.div (congrArg (fun z => Ideal.exp (x0 (ix2 p c) - z)) (rowmax_apply x0 _ _ p)) ?_
  refine (rowsum_apply _ _ _ p).trans (Finset.sum_congr rfl fun c' _ => ?_)
  show Ideal.exp (x0 (ix2 p c') - broadcastTo S1000x91 (shapeCast S1000x1 _ shapeCasts_S1000_S1000x1) broadcasts_S1000x1_S1000x91 (ix2 p c')) = _
  rw [keep_apply]
  exact congrArg (fun z => Ideal.exp (x0 (ix2 p c') - z)) (rowmax_apply x0 _ _ p)

end Cert.KernelIdeal.Payload

end
-- ==== Proof.PayOut.lean ====
import proofs.«418606_j32384053412636_1_alg».proof.Proof.Gen.KernelIdeal.Frame
import proofs.«418606_j32384053412636_1_alg».proof.Proof.PayBox
import proofs.«418606_j32384053412636_1_alg».proof.Proof.PayClass

noncomputable section

open scoped BigOperators

/-!
  What the kernel body leaves in its output block, read at one entry (p, q): the matching cost of the query in row `p`
  of the logits and box blocks with the target in column `q` of the transposed target block, the class term the sum
  against column `q` of the one-hot block.
-/

namespace Cert.KernelIdeal.Payload

open Cert.KernelIdeal Cert.KernelIdeal.Gen Idealize.ShloMosaic Idealize.ShloMosaic.ValueIdx Cert.MatchCost Cert.LibKeepdims

theorem hz : (![0, 0] : Fin 2 → Nat) = fun _ => 0 := funext fun a => by fin_cases a <;> rfl

theorem out_apply (x0 : Vec Ideal S1000x91 .f32) (x1 : Vec Ideal S1000x4 .f32) (x2 : Vec Ideal S4x512 .f32)
    (x3 : Vec Ideal S91x512 .bf16) (p : Fin 1000) (q : Fin 512) :
    out0_4 x0 x1 x2 x3 (ix2 p q)
      = boxCost (fun k => x1 (ix2 p k)) (fun k => x2 (ix2 k q))
          (wZero - ∑ c : Fin 91, softmax (fun c => x0 (ix2 p c)) c * x3 (ix2 c q)) := by
  unfold out0_4
  rw [View.canon_unit_zero hz]
  simp only [View.ld_unit_zero (S := S1000x91) hz, View.ld_unit_zero (S := S1000x4) hz, View.ld_unit_zero (S := S4x512) hz,
    View.ld_unit_zero (S := S91x512) hz]
  rw [pay1_apply, pay2_apply, pay18_apply, pay19_apply, pay20_apply]
  simp only [pay8_apply, pay9_apply, pay10_apply, pay11_apply, pay12_apply, pay13_eq, pay14_apply, pay15_apply, pay16_apply,
    pay17_apply]
  unfold boxCost
  simp only [wZero_sub]

end Cert.KernelIdeal.Payload

end
-- ==== Proof.KernelArray.lean ====
import proofs.«418606_j32384053412636_1_alg».proof.Proof.Gen.KernelIdeal.Frame
import proofs.«418606_j32384053412636_1_alg».proof.Proof.PayOut
import Idealize.ShloMosaic.Lib.Pipeline.Value

noncomputable section

open scoped BigOperators

/-!
  The region's output array after the run. Point (i, j) of the 16 × 4 grid stages rows 1000·i … 1000·i + 999 of the
  flattened logits and boxes and columns 512·j … 512·j + 511 of the transposed targets and of the one-hot table, and
  writes back block (i, j) of the [16000, 2048] cost matrix; the 64 blocks tile it. So entry (r, j) of the matrix is the
  matching cost of query row `r` with target column `j`, the class term the sum against column `j` of the one-hot table.
-/

namespace Cert.KernelIdeal.CostValue

open Cert.KernelIdeal Cert.KernelIdeal.Gen Cert.KernelIdeal.Payload Idealize.ShloMosaic Idealize.ShloMosaic.TcCoe Idealize.SL.Sem
open Idealize.ShloMosaic.ValueIdx Cert.MatchCost
open Idealize.ShloMosaic.Pipeline (Dat)

variable (m : (ℓ : Loc nD τ sig) → Buf (Elt Ideal) ℓ) (ρ : Dev nD → PrngReg)

/-- Entry (r, j) of the cost matrix from the four arrays the region stages. -/
def costAt (A0 : S16000x91.Idx → EReal) (A1 : S16000x4.Idx → EReal) (A2 : S4x2048.Idx → EReal) (A3 : S91x2048.Idx → EReal)
    (r : Fin 16000) (j : Fin 2048) : EReal :=
  boxCost (fun k => A1 (ix2 r k)) (fun k => A2 (ix2 k j))
    (wZero - ∑ c : Fin 91, softmax (fun c => A0 (ix2 r c)) c * A3 (ix2 c j))

/-- The cost matrix as one array. -/
def costArr (A0 : S16000x91.Idx → EReal) (A1 : S16000x4.Idx → EReal) (A2 : S4x2048.Idx → EReal) (A3 : S91x2048.Idx → EReal) :
    S16000x2048.Idx → EReal :=
  fun i => costAt A0 A1 A2 A3 ⟨(i 0).val, idx2_lt0 i⟩ ⟨(i 1).val, idx2_lt1 i⟩

/-- The printed index maps, decided over the 64 points: the row windows move with the output's row block and sit at
    column block 0; the column windows move with the output's column block and sit at row block 0. -/
theorem idx_facts : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = 0
    ∧ win0_2.index t (0 : Fin 2) = 0
    ∧ win0_2.index t (1 : Fin 2) = win0_4.index t (1 : Fin 2)
    ∧ win0_3.index t (0 : Fin 2) = 0
    ∧ win0_3.index t (1 : Fin 2) = win0_4.index t (1 : Fin 2)
    ∧ win0_4.index t (0 : Fin 2) ≤ 15
    ∧ win0_4.index t (1 : Fin 2) ≤ 3 :=
  (by decide +kernel : ∀ t : Fin grid0.N, _)

/-- Every block of the 16 × 4 tiling is some point's. -/
theorem idx_onto : ∀ (q0 : Fin 16) (q1 : Fin 4), ∃ t : Fin cfg0.N, win0_4.index t = ![q0.val, q1.val] :=
  (by decide +kernel : ∀ (q0 : Fin 16) (q1 : Fin 4), ∃ t : Fin grid0.N, win0_4.index t = ![q0.val, q1.val])

/-! ## The staged blocks are the arrays read where the output's block says -/

theorem blk0 (c : Dev nD) (t : Fin cfg0.N) (p : Fin 1000) (k : Fin 91) (R : Fin 16000)
    (hR : R.val = win0_4.index t (0 : Fin 2) * 1000 + p.val) :
    iblk m c 0 t (ix2 p k) = V m c main_v0 (ix2 R k) := by
  show V m c main_v0 (((cfg0.win 0).blk t).view.emb (ix2 p k)) = V m c main_v0 (ix2 R k)
  obtain ⟨e00, e01, e10, e11, e20, e21, e30, e31, b0, b1⟩ := idx_facts t
  refine congrArg (V m c main_v0) (funext fun a => Fin.ext ?_)
  match a with
  | ⟨0, _⟩ => show win0_0.index t (0 : Fin 2) * 1000 + 1 * p.val = R.val; omega
  | ⟨1, _⟩ => show win0_0.index t (1 : Fin 2) * 91 + 1 * k.val = k.val; omega

theorem blk1 (c : Dev nD) (t : Fin cfg0.N) (p : Fin 1000) (k : Fin 4) (R : Fin 16000)
    (hR : R.val = win0_4.index t (0 : Fin 2) * 1000 + p.val) :
    iblk m c 1 t (ix2 p k) = V m c main_v1 (ix2 R k) := by
  show V m c main_v1 (((cfg0.win 1).blk t).view.emb (ix2 p k)) = V m c main_v1 (ix2 R k)
  obtain ⟨e00, e01, e10, e11, e20, e21, e30, e31, b0, b1⟩ := idx_facts t
  refine congrArg (V m c main_v1) (funext fun a => Fin.ext ?_)
  match a with
  | ⟨0, _⟩ => show win0_1.index t (0 : Fin 2) * 1000 + 1 * p.val = R.val; omega
  | ⟨1, _⟩ => show win0_1.index t (1 : Fin 2) * 4 + 1 * k.val = k.val; omega

theorem blk2 (c : Dev nD) (t : Fin cfg0.N) (k : Fin 4) (q : Fin 512) (J : Fin 2048)
    (hJ : J.val = win0_4.index t (1 : Fin 2) * 512 + q.val) :
    iblk m c 2 t (ix2 k q) = V m c main_v2 (ix2 k J) := by
  show V m c main_v2 (((cfg0.win 2).blk t).view.emb (ix2 k q)) = V m c main_v2 (ix2 k J)
  obtain ⟨e00, e01, e10, e11, e20, e21, e30, e31, b0, b1⟩ := idx_facts t
  refine congrArg (V m c main_v2) (funext fun a => Fin.ext ?_)
  match a with
  | ⟨0, _⟩ => show win0_2.index t (0 : Fin 2) * 4 + 1 * k.val = k.val; omega
  | ⟨1, _⟩ => show win0_2.index t (1 : Fin 2) * 512 + 1 * q.val = J.val; omega

theorem blk3 (c : Dev nD) (t : Fin cfg0.N) (k : Fin 91) (q : Fin 512) (J : Fin 2048)
    (hJ : J.val = win0_4.index t (1 : Fin 2) * 512 + q.val) :
    iblk m c 3 t (ix2 k q) = V m c main_v4 (ix2 k J) := by
  show V m c main_v4 (((cfg0.win 3).blk t).view.emb (ix2 k q)) = V m c main_v4 (ix2 k J)
  obtain ⟨e00, e01, e10, e11, e20, e21, e30, e31, b0, b1⟩ := idx_facts t
  refine congrArg (V m c main_v4) (funext fun a => Fin.ext ?_)
  match a with
  | ⟨0, _⟩ => show win0_3.index t (0 : Fin 2) * 91 + 1 * k.val = k.val; omega
  | ⟨1, _⟩ => show win0_3.index t (1 : Fin 2) * 512 + 1 * q.val = J.val; omega

/-- WHAT POINT `t` WRITES BACK is block `t` of the cost matrix of the arrays as the region finds them. -/
theorem flushed_eq (c : Dev nD) (t : Fin cfg0.N) :
    (dats m 0 c).flushed 4 t
      = ((cfg0.win 4).blk t).view.read (Elt Ideal) (costArr (V m c main_v0) (V m c main_v1) (V m c main_v2) (V m c main_v4)) := by
  show (cfg0.win 4).cut (grid0.coords t) ((dats m 0 c).after 4 t) = _
  rw [after0_4]
  obtain ⟨e00, e01, e10, e11, e20, e21, e30, e31, b0, b1⟩ := idx_facts t
  refine funext fun (y : S1000x512.Idx) => ?_
  obtain ⟨p, q, rfl⟩ : ∃ (p : Fin 1000) (q : Fin 512), y = ix2 p q := ⟨y 0, y 1, eq_ix2 y⟩
  have hp := p.isLt
  have hq := q.isLt
  refine (out_apply (iblk m c 0 t) (iblk m c 1 t) (iblk m c 2 t) (iblk m c 3 t) p q).trans ?_
  have hemb : ((cfg0.win 4).blk t).view.emb (ix2 p q)
      = ix2 (⟨win0_4.index t (0 : Fin 2) * 1000 + p.val, by omega⟩ : Fin 16000) (⟨win0_4.index t (1 : Fin 2) * 512 + q.val, by omega⟩ : Fin 2048) :=
    funext fun a => Fin.ext (by
      match a with
      | ⟨0, _⟩ => show win0_4.index t (0 : Fin 2) * 1000 + 1 * p.val = win0_4.index t (0 : Fin 2) * 1000 + p.val; omega
      | ⟨1, _⟩ => show win0_4.index t (1 : Fin 2) * 512 + 1 * q.val = win0_4.index t (1 : Fin 2) * 512 + q.val; omega)
  show _ = costArr (V m c main_v0) (V m c main_v1) (V m c main_v2) (V m c main_v4) (((cfg0.win 4).blk t).view.emb (ix2 p q))
  rw [hemb]
  show _ = costAt (V m c main_v0) (V m c main_v1) (V m c main_v2) (V m c main_v4)
    (⟨win0_4.index t (0 : Fin 2) * 1000 + p.val, by omega⟩ : Fin 16000) (⟨win0_4.index t (1 : Fin 2) * 512 + q.val, by omega⟩ : Fin 2048)
  unfold costAt
  have hb : (fun k : Fin 4 => (iblk m c 1 t (ix2 p k) : EReal)) = fun k => V m c main_v1 (ix2 (⟨win0_4.index t (0 : Fin 2) * 1000 + p.val, by omega⟩ : Fin 16000) k) :=
    funext fun k => blk1 m c t p k _ rfl
  have ht : (fun k : Fin 4 => (iblk m c 2 t (ix2 k q) : EReal)) = fun k => V m c main_v2 (ix2 k (⟨win0_4.index t (1 : Fin 2) * 512 + q.val, by omega⟩ : Fin 2048)) :=
    funext fun k => blk2 m c t k q _ rfl
  have hl : (fun k : Fin 91 => (iblk m c 0 t (ix2 p k) : EReal)) = fun k => V m c main_v0 (ix2 (⟨win0_4.index t (0 : Fin 2) * 1000 + p.val, by omega⟩ : Fin 16000) k) :=
    funext fun k => blk0 m c t p k _ rfl
  have ho : ∀ k : Fin 91, (iblk m c 3 t (ix2 k q) : EReal) = V m c main_v4 (ix2 k (⟨win0_4.index t (1 : Fin 2) * 512 + q.val, by omega⟩ : Fin 2048)) :=
    fun k => blk3 m c t k q _ rfl
  exact congr (congr (congrArg boxCost hb) ht)
    (congrArg (wZero - ·) (Finset.sum_congr rfl fun k _ => by rw [hl, ho k]))

/-! ## The blocks tile the matrix -/

/-- An index of the matrix is in point `t`'s block iff each coordinate is in the block's range on its axis. -/
theorem mem_blk (t : Fin cfg0.N) (i : S16000x2048.Idx) :
    i ∈ ((cfg0.win 4).blk t).view.set ↔ ∀ a : Fin 2, win0_4.index t a * S1000x512.size a ≤ (i a).val ∧ (i a).val < win0_4.index t a * S1000x512.size a + S1000x512.size a := by
  show i ∈ ((View.whole main_v5).slice (win0_4.rect t)).set ↔ _
  rw [View.set_slice_whole, Rect.mem_set_unit]
  exact Iff.rfl

/-- Every entry is in some flushing point's block: row `r` in row block `r / 1000`, column `j` in column block `j / 512`. -/
theorem cover (i : S16000x2048.Idx) : ∃ t : Fin cfg0.N, (cfg0.win 4).flush t = true ∧ i ∈ ((cfg0.win 4).blk t).view.set := by
  have hi0 : (i 0).val < 16000 := (i 0).isLt
  have hi1 : (i 1).val < 2048 := (i 1).isLt
  obtain ⟨t, ht⟩ := idx_onto ⟨(i 0).val / 1000, by omega⟩ ⟨(i 1).val / 512, by omega⟩
  have q0 : win0_4.index t (0 : Fin 2) = (i 0).val / 1000 := congrFun ht 0
  have q1 : win0_4.index t (1 : Fin 2) = (i 1).val / 512 := congrFun ht 1
  refine ⟨t, flush0_4 t, ?_⟩
  rw [mem_blk]
  intro a
  match a with
  | ⟨0, _⟩ => show win0_4.index t (0 : Fin 2) * 1000 ≤ (i 0).val ∧ (i 0).val < win0_4.index t (0 : Fin 2) * 1000 + 1000; omega
  | ⟨1, _⟩ => show win0_4.index t (1 : Fin 2) * 512 ≤ (i 1).val ∧ (i 1).val < win0_4.index t (1 : Fin 2) * 512 + 512; omega

/-- THE ARRAY after the run is the cost matrix of the arrays the region found. -/
theorem final (c : Dev nD) :
    (dats m 0 c).arrAt 4 cfg0.N = costArr (V m c main_v0) (V m c main_v1) (V m c main_v2) (V m c main_v4) :=
  (dats m 0 c).arrAt_eq_of_cover 4 _ (fun t _ => flushed_eq m c t) cover

end Cert.KernelIdeal.CostValue

end
-- ==== Proof.KernelRun.lean ====
import proofs.«418606_j32384053412636_1_alg».proof.Proof.Gen.KernelIdeal.Frame
import proofs.«418606_j32384053412636_1_alg».proof.Proof.KernelArray
import Idealize.ShloMosaic.Lib.StableHlo.Run
import Idealize.ShloMosaic.Lib.ValueLayout
import Idealize.ShloMosaic.PureOps.Ideal

noncomputable section

open scoped BigOperators

/-!
  The idealized kernel's run, read. Before the region the host flattens the logits and the boxes, transposes the
  targets, and builds the transposed one-hot table of the labels (entry (c, j) is 1 where label j is class c, else 0);
  after it the host reshapes the [16000, 2048] cost matrix to [16, 1000, 2048]. With every label below 91, column j of
  the one-hot table has its one 1 at the label, so the sum against it is the softmax probability of the label.
-/

namespace Cert.KernelIdeal.CostValue

open Cert.KernelIdeal Cert.KernelIdeal.Gen Idealize.ShloMosaic Idealize.ShloMosaic.TcCoe Idealize.SL.Sem Idealize.ShloMosaic.StableHlo
open Idealize.ShloMosaic.ValueIdx Cert.MatchCost

variable (m : (ℓ : Loc nD τ sig) → Buf (Elt Ideal) ℓ) (ρ : Dev nD → PrngReg)

/-! ## The arrays the region finds -/

theorem V_v0 (c : Dev nD) : (V m c main_v0 : S16000x91.Idx → EReal)
    = shapeCast S16000x91 (m ((c : Thread nD τ).loc main_arg0)) shapeCasts_S16x1000x91_S16000x91 := by
  dsimp only [V, V0]
  simp only [hostOps0, hostOps0_1, hostOps0_2, List.flatten_cons, List.flatten_nil, List.append_nil, List.cons_append, List.nil_append]
  after_results
  rfl

theorem V_v1 (c : Dev nD) : (V m c main_v1 : S16000x4.Idx → EReal)
    = shapeCast S16000x4 (m ((c : Thread nD τ).loc main_arg1)) shapeCasts_S16x1000x4_S16000x4 := by
  dsimp only [V, V0]
  simp only [hostOps0, hostOps0_1, hostOps0_2, List.flatten_cons, List.flatten_nil, List.append_nil, List.cons_append, List.nil_append]
  after_results
  rfl

theorem V_v2 (c : Dev nD) : (V m c main_v2 : S4x2048.Idx → EReal)
    = transpose S4x2048 [1, 0] (m ((c : Thread nD τ).loc main_arg2)) transposes_S2048x4_S4x2048_1_0 := by
  dsimp only [V, V0]
  simp only [hostOps0, hostOps0_1, hostOps0_2, List.flatten_cons, List.flatten_nil, List.append_nil, List.cons_append, List.nil_append]
  after_results

/-- The transposed one-hot table of a label vector. -/
def oneHotT (a3 : IVec S2048 32) : S91x2048.Idx → EReal :=
  transpose S91x2048 [1, 0]
    (uitofp (F := Ideal) .bf16
      (cmpi .eq
        (broadcastInDim S2048x91 ![0, 1] bcast_S2048x1_S2048x91_0_1 (broadcastInDim S2048x1 ![0] bcast_S2048_S2048x1_0 a3))
        (broadcastInDim S2048x91 ![0, 1] bcast_S1x91_S2048x91_0_1 (iotaInDim S1x91 32 1))))
    transposes_S2048x91_S91x2048_1_0

theorem V_v4 (c : Dev nD) : (V m c main_v4 : S91x2048.Idx → EReal) = oneHotT (m ((c : Thread nD τ).loc main_arg3)) := by
  unfold oneHotT
  dsimp only [V, V0]
  simp only [hostOps0, hostOps0_1, hostOps0_2, List.flatten_cons, List.flatten_nil, List.append_nil, List.cons_append, List.nil_append]
  after_results
  rfl

/-- Entry (c, j) of the one-hot table, for a label below 91: 1 at the label's class, 0 elsewhere. -/
theorem oneHotT_apply (a3 : IVec S2048 32) (j : Fin 2048) (h : (a3 (ix1 j)).toNat < 91) (c : Fin 91) :
    oneHotT a3 (ix2 c j) = if c = ⟨(a3 (ix1 j)).toNat, h⟩ then 1 else 0 := by
  unfold oneHotT
  refine (transpose_ix2_apply _ _ c j).trans ?_
  have hB : broadcastInDim S2048x91 ![0, 1] bcast_S2048x1_S2048x91_0_1 (broadcastInDim S2048x1 ![0] bcast_S2048_S2048x1_0 a3) (ix2 j c)
      = a3 (ix1 j) := by
    refine (broadcastInDim_apply _ _ _ (ix2 j c) (ix2 j (0 : Fin 1)) fun a => ?_).trans ?_
    · match a with
      | ⟨0, _⟩ => rfl
      | ⟨1, _⟩ => rfl
    · refine broadcastInDim_apply _ _ _ (ix2 j (0 : Fin 1)) (ix1 j) fun a => ?_
      match a with
      | ⟨0, _⟩ => rfl
  have hI : broadcastInDim S2048x91 ![0, 1] bcast_S1x91_S2048x91_0_1 (iotaInDim S1x91 32 1) (ix2 j c) = BitVec.ofNat 32 c.val := by
    refine (broadcastInDim_apply _ _ _ (ix2 j c) (ix2 (0 : Fin 1) c) fun a => ?_).trans rfl
    match a with
    | ⟨0, _⟩ => rfl
    | ⟨1, _⟩ => rfl
  show (((IntOp.cmpi .eq (broadcastInDim S2048x91 ![0, 1] bcast_S2048x1_S2048x91_0_1 (broadcastInDim S2048x1 ![0] bcast_S2048_S2048x1_0 a3) (ix2 j c))
      (broadcastInDim S2048x91 ![0, 1] bcast_S1x91_S2048x91_0_1 (iotaInDim S1x91 32 1) (ix2 j c))).toNat : ℝ) : EReal) = _
  rw [hB, hI]
  by_cases hc : c = ⟨(a3 (ix1 j)).toNat, h⟩
  · rw [if_pos hc]
    have e : a3 (ix1 j) = BitVec.ofNat 32 c.val := by
      have hv : c.val = (a3 (ix1 j)).toNat := congrArg Fin.val hc
      apply BitVec.eq_of_toNat_eq
      rw [BitVec.toNat_ofNat, hv]
      have := (a3 (ix1 j)).isLt
      omega
    rw [e]
    simp [IntOp.cmpi]
  · rw [if_neg hc]
    have e : a3 (ix1 j) ≠ BitVec.ofNat 32 c.val := fun e => hc (Fin.ext (by
      have hc91 := c.isLt
      show c.val = (a3 (ix1 j)).toNat
      rw [e, BitVec.toNat_ofNat]
      omega))
    simp [IntOp.cmpi, e]

/-! ## The host line after the region -/

theorem tail_v6 (c : Dev nD) : (Pipeline.afterTail₀ cfgs (dats m) 0 (V0 m) [hostOps1] c main_v6 : S16x1000x2048.Idx → EReal)
    = shapeCast S16x1000x2048 (costArr (V m c main_v0) (V m c main_v1) (V m c main_v2) (V m c main_v4)) shapeCasts_S16000x2048_S16x1000x2048 := by
  have hw : Pipeline.withArrays (cfgs 0).spec c (V0 m c) (fun w => (dats m 0 c).arrAt w (cfgs 0).N) (Proc.devRef .tc main_v5)
      = costArr (V m c main_v0) (V m c main_v1) (V m c main_v2) (V m c main_v4) :=
    (Pipeline.withArrays_arr spec0 launch0.win.arr_inj c _ _ 4).trans (final m c)
  unfold Pipeline.afterTail₀
  show StableHlo.after hostOps1 _ (Proc.devRef .tc main_v6) = _
  after_results
  funext i
  show shapeCast S16x1000x2048 (Pipeline.withArrays (cfgs 0).spec c (V0 m c) (fun w => (dats m 0 c).arrAt w (cfgs 0).N) (Proc.devRef .tc main_v5)) shapeCasts_S16000x2048_S16x1000x2048 i = _
  rw [hw]

/-! ## One entry of the cost matrix, from the arguments -/

/-- Entry (r, j) of the cost matrix the region writes, for labels below 91: the matching cost of flattened query row
    `r` with target `j`, the class term minus the softmax probability of the target's label. -/
theorem entry (c : Dev nD) (hid : ∀ j : Fin 2048, (m ((c : Thread nD τ).loc main_arg3) (ix1 j)).toNat < 91) (r : Fin 16000) (j : Fin 2048) :
    costAt (V m c main_v0) (V m c main_v1) (V m c main_v2) (V m c main_v4) r j
      = boxCost (fun k => shapeCast S16000x4 (m ((c : Thread nD τ).loc main_arg1)) shapeCasts_S16x1000x4_S16000x4 (ix2 r k))
          (fun k => m ((c : Thread nD τ).loc main_arg2) (ix2 j k))
          (-(softmax (fun k => shapeCast S16000x91 (m ((c : Thread nD τ).loc main_arg0)) shapeCasts_S16x1000x91_S16000x91 (ix2 r k))
              ⟨(m ((c : Thread nD τ).loc main_arg3) (ix1 j)).toNat, hid j⟩)) := by
  unfold costAt
  rw [V_v0, V_v1, V_v2, V_v4]
  have ht : (fun k : Fin 4 => transpose S4x2048 [1, 0] (m ((c : Thread nD τ).loc main_arg2)) transposes_S2048x4_S4x2048_1_0 (ix2 k j))
      = fun k => m ((c : Thread nD τ).loc main_arg2) (ix2 j k) :=
    funext fun k => transpose_ix2_apply _ _ k j
  rw [ht, sum_mul_oneHot _ _ _ (fun k => oneHotT_apply _ j (hid j) k), wZero_sub]

/-! ## The run -/

/-- Every weakly fair execution of the idealized kernel's @main terminates with the result at the reshaped cost matrix
    of the arrays the region found, the arguments unchanged. -/
theorem run : θ_run defs (onTc (τ := τ) (main (F := Ideal))) ⟨m, fun _ => 0, ρ⟩ fun r => ∀ c : Dev nD,
      r.2.mem ((c.tc : Thread nD τ).loc main_v6)
        = shapeCast S16x1000x2048 (costArr (V m c main_v0) (V m c main_v1) (V m c main_v2) (V m c main_v4)) shapeCasts_S16000x2048_S16x1000x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_v6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.CostValue

end
-- ==== Proof.RefCost.lean ====
/-
  The reference's cost matrix before its final reshape, read at one entry (r, j): the matching cost of query row r
  (its logits and box read off the flattened arguments) with target j.

  The reading goes stage by stage. The softmax of row r: the row maximum is the fold of `max` from −∞ over the row's 91
  logits, the maximum against −∞ changes nothing, and the denominator is the sum of the shifted exponentials. The query's
  box: the four corner columns, joined along the coordinate axis, are centre ∓ half the size. The class term: the label
  of target j is below 91, hence not negative as a signed word, so the wrap-around select keeps it, the gather's clamp
  keeps it, and the gathered entry is the row's probability at that label. The L1 term is the sum over the four
  coordinates of the absolute differences of corners. The generalized IoU is built from the two areas, the clipped
  sides of the intersection and of the smallest enclosing rectangle. The entry is 5 · L1 + 1 · (−probability) + 2 · (−GIoU).
-/
import proofs.«418606_j32384053412636_1_alg».proof.Proof.Gen.ReferenceIdeal.Read
import proofs.«418606_j32384053412636_1_alg».proof.Proof.Spec
import Idealize.ShloMosaic.Lib.ValueIdx
import Idealize.ShloMosaic.Lib.StableHlo.Predicate

noncomputable section

open scoped BigOperators

namespace Cert.RefCost

open Cert.ReferenceIdeal Cert.ReferenceIdeal.Read Idealize.ShloMosaic Idealize.ShloMosaic.ValueIdx Cert.MatchCost

/-! ## The softmax of a row -/

/-- The row maximum, read at row `r`: the fold of `max` from `−∞` over the row's 91 logits. -/
theorem rowMax_read (x0 : (⟨S16x1000x91, .f32⟩ : BufTy).Contents (Elt Ideal)) (r : Fin 16000) :
    val_main_v1 (F := Ideal) x0 (ix1 r) = rowMax (fun c => val_main_v0 (F := Ideal) x0 (ix2 r c)) := by
  unfold val_main_v1
  generalize val_main_v0 (F := Ideal) x0 = y
  have h : S16000x91.Reduces [(1 : Fin 2)] S16000 := by decide
  have key := Host.reduce_eq_fold_single (s := S16000x91) (t := S16000) (a := (1 : Fin 2)) (u := S_)
    (FloatOps.maximumf (F := Ideal) (φ := .f32)) y (val_main_cst (F := Ideal))
    Facts₀.reducesTo_S16000x91_S16000_d1 h Facts₀.h_S_ (ix1 r)
  have e : (y ∘ h.lift (ix1 r)) = fun c : Fin 91 => y (ix2 r c) :=
    funext fun c => congrArg y (funext fun a => Fin.ext (by match a with | ⟨0, _⟩ => rfl | ⟨1, _⟩ => rfl))
  rw [e] at key
  exact key

/-- The shifted exponential of entry `(r, c)`. -/
theorem expShift_read (x0 : (⟨S16x1000x91, .f32⟩ : BufTy).Contents (Elt Ideal)) (r : Fin 16000) (c : Fin 91) :
    val_main_v7 (F := Ideal) x0 (ix2 r c) = expShift (fun c => val_main_v0 (F := Ideal) x0 (ix2 r c)) c := by
  have e5 : val_main_v5 (F := Ideal) x0 (ix2 r c) = rowMax (fun c => val_main_v0 (F := Ideal) x0 (ix2 r c)) := by
    rw [val_main_v5_apply, val_main_v4_apply,
      show idx_main_v4 (idx_main_v5 (ix2 r c)) = ix1 r from
        funext fun a => Fin.ext (by match a with | ⟨0, _⟩ => rfl),
      val_main_v3_apply, rowMax_read, val_main_v2_apply, val_main_cst_0_apply]
    exact max_wNegInf_rowMax _
  rw [val_main_v7_apply, val_main_v6_apply, e5]
  rfl

/-- The softmax's denominator of row `r`. -/
theorem denom_read (x0 : (⟨S16x1000x91, .f32⟩ : BufTy).Contents (Elt Ideal)) (r : Fin 16000) :
    val_main_v8 (F := Ideal) x0 (ix1 r) = ∑ c' : Fin 91, expShift (fun c => val_main_v0 (F := Ideal) x0 (ix2 r c)) c' := by
  rw [val_main_v8_apply, val_main_cst_1_apply]
  refine (wZero_add _).trans ?_
  refine Finset.sum_congr rfl fun k _ => ?_
  rw [show idx_main_v8 (ix1 r) k = ix2 r k from
    funext fun a => Fin.ext (by match a with | ⟨0, _⟩ => rfl | ⟨1, _⟩ => rfl)]
  exact expShift_read x0 r k

/-- The reference's probability of class `c` for query row `r` is the softmax of the row's logits. -/
theorem softmax_read (x0 : (⟨S16x1000x91, .f32⟩ : BufTy).Contents (Elt Ideal)) (r : Fin 16000) (c : Fin 91) :
    val_main_v11 (F := Ideal) x0 (ix2 r c) = softmax (fun c => val_main_v0 (F := Ideal) x0 (ix2 r c)) c := by
  rw [val_main_v11_apply, val_main_v10_apply, val_main_v9_apply,
    show idx_main_v9 (idx_main_v10 (ix2 r c)) = ix1 r from
      funext fun a => Fin.ext (by match a with | ⟨0, _⟩ => rfl),
    denom_read, expShift_read]
  rfl

/-! ## The query's box, from centre and size to corners -/

/-- One column of the concatenation of the four corner columns. -/
theorem corner_piece (x1 : (⟨S16x1000x4, .f32⟩ : BufTy).Contents (Elt Ideal)) (r : Fin 16000) (k : Nat) (hk : k < 4) (col : (⟨S16000x1, .f32⟩ : BufTy).Contents (Elt Ideal))
    (hcol : [(⟨S16000x1, val_main_v19 (F := Ideal) x1⟩ : (s : Shape) × (s.Idx → Elt Ideal .f32)), ⟨S16000x1, val_main_v22 (F := Ideal) x1⟩,
        ⟨S16000x1, val_main_v25 (F := Ideal) x1⟩, ⟨S16000x1, val_main_v28 (F := Ideal) x1⟩][k]'hk = ⟨S16000x1, col⟩) :
    val_main_v29 (F := Ideal) x1 (ix2 r (⟨k, hk⟩ : Fin 4)) = col (ix2 r (0 : Fin 1)) := by
  unfold val_main_v29
  refine concatenate_apply_piece (t := S16000x4) 1 _ _ (ix2 r (⟨k, hk⟩ : Fin 4)) k (by exact hk) S16000x1 col (by exact hcol) rfl k ?_ (ix2 r (0 : Fin 1)) ?_ ?_
  · interval_cases k <;> rfl
  · intro b hb
    match b with
    | ⟨0, _⟩ => rfl
    | ⟨1, _⟩ => exact absurd rfl hb
  · rfl

/-- Corner coordinate 0 of query row `r`. -/
theorem corner0 (x1 : (⟨S16x1000x4, .f32⟩ : BufTy).Contents (Elt Ideal)) (r : Fin 16000) :
    val_main_v29 (F := Ideal) x1 (ix2 r (0 : Fin 4))
      = val_main_v12 (F := Ideal) x1 (ix2 r (0 : Fin 4)) - wHalf * val_main_v12 (F := Ideal) x1 (ix2 r (2 : Fin 4)) := by
  refine (corner_piece x1 r 0 (by decide) (val_main_v19 (F := Ideal) x1) rfl).trans ?_
  rw [val_main_v19_apply, val_main_v13_apply, val_main_v18_apply, val_main_v17_apply, val_main_cst_2_apply,
    val_main_v15_apply,
    show idx_main_v13 (ix2 r (0 : Fin 1)) = ix2 r (0 : Fin 4) from funext fun a => Fin.ext (by match a with | ⟨0, _⟩ => rfl | ⟨1, _⟩ => rfl),
    show idx_main_v15 (ix2 r (0 : Fin 1)) = ix2 r (2 : Fin 4) from funext fun a => Fin.ext (by match a with | ⟨0, _⟩ => rfl | ⟨1, _⟩ => rfl)]
  rfl

/-- Corner coordinate 1 of query row `r`. -/
theorem corner1 (x1 : (⟨S16x1000x4, .f32⟩ : BufTy).Contents (Elt Ideal)) (r : Fin 16000) :
    val_main_v29 (F := Ideal) x1 (ix2 r (1 : Fin 4))
      = val_main_v12 (F := Ideal) x1 (ix2 r (1 : Fin 4)) - wHalf * val_main_v12 (F := Ideal) x1 (ix2 r (3 : Fin 4)) := by
  refine (corner_piece x1 r 1 (by decide) (val_main_v22 (F := Ideal) x1) rfl).trans ?_
  rw [val_main_v22_apply, val_main_v14_apply, val_main_v21_apply, val_main_v20_apply, val_main_cst_3_apply,
    val_main_v16_apply,
    show idx_main_v14 (ix2 r (0 : Fin 1)) = ix2 r (1 : Fin 4) from funext fun a => Fin.ext (by match a with | ⟨0, _⟩ => rfl | ⟨1, _⟩ => rfl),
    show idx_main_v16 (ix2 r (0 : Fin 1)) = ix2 r (3 : Fin 4) from funext fun a => Fin.ext (by match a with | ⟨0, _⟩ => rfl | ⟨1, _⟩ => rfl)]
  rfl

/-- Corner coordinate 2 of query row `r`. -/
theorem corner2 (x1 : (⟨S16x1000x4, .f32⟩ : BufTy).Contents (Elt Ideal)) (r : Fin 16000) :
    val_main_v29 (F := Ideal) x1 (ix2 r (2 : Fin 4))
      = val_main_v12 (F := Ideal) x1 (ix2 r (0 : Fin 4)) + wHalf * val_main_v12 (F := Ideal) x1 (ix2 r (2 : Fin 4)) := by
  refine (corner_piece x1 r 2 (by decide) (val_main_v25 (F := Ideal) x1) rfl).trans ?_
  rw [val_main_v25_apply, val_main_v13_apply, val_main_v24_apply, val_main_v23_apply, val_main_cst_4_apply,
    val_main_v15_apply,
    show idx_main_v13 (ix2 r (0 : Fin 1)) = ix2 r (0 : Fin 4) from funext fun a => Fin.ext (by match a with | ⟨0, _⟩ => rfl | ⟨1, _⟩ => rfl),
    show idx_main_v15 (ix2 r (0 : Fin 1)) = ix2 r (2 : Fin 4) from funext fun a => Fin.ext (by match a with | ⟨0, _⟩ => rfl | ⟨1, _⟩ => rfl)]
  rfl

/-- Corner coordinate 3 of query row `r`. -/
theorem corner3 (x1 : (⟨S16x1000x4, .f32⟩ : BufTy).Contents (Elt Ideal)) (r : Fin 16000) :
    val_main_v29 (F := Ideal) x1 (ix2 r (3 : Fin 4))
      = val_main_v12 (F := Ideal) x1 (ix2 r (1 : Fin 4)) + wHalf * val_main_v12 (F := Ideal) x1 (ix2 r (3 : Fin 4)) := by
  refine (corner_piece x1 r 3 (by decide) (val_main_v28 (F := Ideal) x1) rfl).trans ?_
  rw [val_main_v28_apply, val_main_v14_apply, val_main_v27_apply, val_main_v26_apply, val_main_cst_5_apply,
    val_main_v16_apply,
    show idx_main_v14 (ix2 r (0 : Fin 1)) = ix2 r (1 : Fin 4) from funext fun a => Fin.ext (by match a with | ⟨0, _⟩ => rfl | ⟨1, _⟩ => rfl),
    show idx_main_v16 (ix2 r (0 : Fin 1)) = ix2 r (3 : Fin 4) from funext fun a => Fin.ext (by match a with | ⟨0, _⟩ => rfl | ⟨1, _⟩ => rfl)]
  rfl

/-! ## The class term: the probability column gathered at the target's label -/

/-- The gather's dimension numbers (offset axis 0, collapsed and start-indexed axis 1). -/
abbrev gd : GatherDims S16000x91 S2048x1 S16000x2048 := gather_S16000x91_S2048x1_S16000x2048_0_1_n_n_1_1_160001

/-- A label word below 91 is not negative as a signed word: the wrap-around select returns it unchanged. -/
theorem label_read (x3 : (⟨S2048, .i32⟩ : BufTy).Contents (Elt Ideal)) (hid : ∀ j : Fin 2048, (x3 (ix1 j)).toNat < 91) (j : Fin 2048) :
    val_main_v35 (F := Ideal) x3 (ix2 j (0 : Fin 1)) = x3 (ix1 j) := by
  rw [val_main_v35_apply, show idx_main_v35 (ix2 j (0 : Fin 1)) = ix1 j from funext fun a => Fin.ext (by match a with | ⟨0, _⟩ => rfl),
    val_main_v34_apply, val_main_v31_apply, val_main_v30_apply, val_main_c_apply]
  have hw : (x3 (ix1 j)).toNat < 2 ^ 31 := by have := hid j; omega
  have hn : ¬ IntOp.cmpi .slt (x3 (ix1 j)) 0#32 = 1#1 := fun h =>
    Nat.not_lt_zero _ ((StableHlo.Predicate.slt_iff_toNat hw (by decide)).mp h)
  rw [eq_zero_of_ne_one hn, select_zero]

/-- The gathered probability at `(r, j)` is row `r`'s probability of target `j`'s label. -/
theorem gather_read (x0 : (⟨S16x1000x91, .f32⟩ : BufTy).Contents (Elt Ideal)) (x3 : (⟨S2048, .i32⟩ : BufTy).Contents (Elt Ideal)) (hid : ∀ j : Fin 2048, (x3 (ix1 j)).toNat < 91) (r : Fin 16000) (j : Fin 2048) :
    val_main_v36 (F := Ideal) x0 x3 (ix2 r j)
      = val_main_v11 (F := Ideal) x0 (ix2 r (⟨(x3 (ix1 j)).toNat, hid j⟩ : Fin 91)) := by
  unfold val_main_v36
  generalize val_main_v11 (F := Ideal) x0 = y
  generalize hidx : val_main_v35 (F := Ideal) x3 = idx
  show y (gd.operandIdx (ix2 r j) idx) = _
  refine congrArg y (funext fun a => Fin.ext ?_)
  have hb : ∀ a : Fin 2, gd.batchCoord (ix2 r j) a = 0 := fun a => GatherDims.batchCoord_eq_zero _ _ _ List.not_mem_nil
  match a with
  | ⟨0, _⟩ =>
    show gd.start (ix2 r j) idx 0 + gd.batchCoord (ix2 r j) 0 + gd.offCoord (ix2 r j) 0 = r.val
    have hs : gd.start (ix2 r j) idx 0 = 0 := by
      unfold GatherDims.start
      exact dif_neg (by decide)
    have ho : gd.offCoord (ix2 r j) 0 = r.val := by
      unfold GatherDims.offCoord
      rw [dif_pos (by decide)]
      rfl
    rw [hs, hb, ho]
    omega
  | ⟨1, _⟩ =>
    show gd.start (ix2 r j) idx 1 + gd.batchCoord (ix2 r j) 1 + gd.offCoord (ix2 r j) 1 = (x3 (ix1 j)).toNat
    have ho : gd.offCoord (ix2 r j) 1 = 0 := GatherDims.offCoord_eq_zero _ _ _ (by decide)
    rw [hb, ho]
    unfold GatherDims.start
    rw [dif_pos (show (1 : Fin 2) ∈ gd.startIndexMap by decide)]
    have hsi : gd.siIdx (ix2 r j) ⟨List.idxOf (1 : Fin 2) gd.startIndexMap,
        List.idxOf_lt_length_iff.2 (show (1 : Fin 2) ∈ gd.startIndexMap by decide)⟩ = ix2 j (0 : Fin 1) := by
      funext b; refine Fin.ext ?_
      match b with
      | ⟨0, _⟩ => rfl
      | ⟨1, _⟩ => rfl
    rw [hsi, ← hidx, label_read x3 hid j]
    have hw : (x3 (ix1 j)).toNat < 2 ^ 31 := by have := hid j; omega
    rw [StableHlo.Predicate.toInt_eq_toNat_of_lt hw, Int.toNat_natCast]
    exact Nat.min_eq_left (show (x3 (ix1 j)).toNat ≤ 90 by have := hid j; omega)

/-! ## The L1 distance between the query's corners and the target's -/

/-- The L1 term at `(r, j)`: the sum over the four coordinates of the absolute differences. -/
theorem l1_read (x1 : (⟨S16x1000x4, .f32⟩ : BufTy).Contents (Elt Ideal)) (x2 : (⟨S2048x4, .f32⟩ : BufTy).Contents (Elt Ideal)) (r : Fin 16000) (j : Fin 2048) :
    val_main_v44 (F := Ideal) x1 x2 (ix2 r j)
      = absE (val_main_v29 (F := Ideal) x1 (ix2 r (0 : Fin 4)) - x2 (ix2 j (0 : Fin 4))) + absE (val_main_v29 (F := Ideal) x1 (ix2 r (1 : Fin 4)) - x2 (ix2 j (1 : Fin 4)))
        + absE (val_main_v29 (F := Ideal) x1 (ix2 r (2 : Fin 4)) - x2 (ix2 j (2 : Fin 4))) + absE (val_main_v29 (F := Ideal) x1 (ix2 r (3 : Fin 4)) - x2 (ix2 j (3 : Fin 4))) := by
  have term : ∀ k : Fin 4, val_main_v43 (F := Ideal) x1 x2 (ix3 r j k)
      = absE (val_main_v29 (F := Ideal) x1 (ix2 r k) - x2 (ix2 j k)) := fun k => by
    rw [val_main_v43_apply, val_main_v42_apply, val_main_v40_apply, val_main_v38_apply, val_main_v41_apply, val_main_v39_apply,
      show idx_main_v38 (idx_main_v40 (ix3 r j k)) = ix2 r k from funext fun a => Fin.ext (by match a with | ⟨0, _⟩ => rfl | ⟨1, _⟩ => rfl),
      show idx_main_v39 (idx_main_v41 (ix3 r j k)) = ix2 j k from funext fun a => Fin.ext (by match a with | ⟨0, _⟩ => rfl | ⟨1, _⟩ => rfl)]
    rfl
  have hk : ∀ k : Fin 4, idx_main_v44 (ix2 r j) k = ix3 r j k := fun k => funext fun a => Fin.ext (by match a with | ⟨0, _⟩ => rfl | ⟨1, _⟩ => rfl | ⟨2, _⟩ => rfl)
  rw [val_main_v44_apply, val_main_cst_7_apply]
  refine (wZero_add _).trans ?_
  refine (Finset.sum_congr rfl fun k _ => (congrArg (val_main_v43 (F := Ideal) x1 x2) (hk k)).trans (term k)).trans ?_
  exact Fin.sum_univ_four _

/-! ## The generalized IoU of the query's box and the target's -/

/-- The query box's area. -/
theorem areaQ_read (x1 : (⟨S16x1000x4, .f32⟩ : BufTy).Contents (Elt Ideal)) (r : Fin 16000) :
    val_main_v55 (F := Ideal) x1 (ix1 r) = (val_main_v29 (F := Ideal) x1 (ix2 r (2 : Fin 4)) - val_main_v29 (F := Ideal) x1 (ix2 r (0 : Fin 4))) * (val_main_v29 (F := Ideal) x1 (ix2 r (3 : Fin 4)) - val_main_v29 (F := Ideal) x1 (ix2 r (1 : Fin 4))) := by
  rw [val_main_v55_apply, val_main_v49_apply, val_main_v54_apply, val_main_v46_apply, val_main_v45_apply, val_main_v48_apply,
    val_main_v47_apply, val_main_v51_apply, val_main_v50_apply, val_main_v53_apply, val_main_v52_apply,
    show idx_main_v45 (idx_main_v46 (ix1 r)) = ix2 r (2 : Fin 4) from
        funext fun a => Fin.ext (by match a with | ⟨0, _⟩ => exact Nat.div_one _ | ⟨1, _⟩ => rfl),
    show idx_main_v47 (idx_main_v48 (ix1 r)) = ix2 r (0 : Fin 4) from
        funext fun a => Fin.ext (by match a with | ⟨0, _⟩ => exact Nat.div_one _ | ⟨1, _⟩ => rfl),
    show idx_main_v50 (idx_main_v51 (ix1 r)) = ix2 r (3 : Fin 4) from
        funext fun a => Fin.ext (by match a with | ⟨0, _⟩ => exact Nat.div_one _ | ⟨1, _⟩ => rfl),
    show idx_main_v52 (idx_main_v53 (ix1 r)) = ix2 r (1 : Fin 4) from
        funext fun a => Fin.ext (by match a with | ⟨0, _⟩ => exact Nat.div_one _ | ⟨1, _⟩ => rfl)]
  rfl

/-- The target box's area. -/
theorem areaT_read (x2 : (⟨S2048x4, .f32⟩ : BufTy).Contents (Elt Ideal)) (j : Fin 2048) :
    val_main_v66 (F := Ideal) x2 (ix1 j) = (x2 (ix2 j (2 : Fin 4)) - x2 (ix2 j (0 : Fin 4))) * (x2 (ix2 j (3 : Fin 4)) - x2 (ix2 j (1 : Fin 4))) := by
  rw [val_main_v66_apply, val_main_v60_apply, val_main_v65_apply, val_main_v57_apply, val_main_v56_apply, val_main_v59_apply,
    val_main_v58_apply, val_main_v62_apply, val_main_v61_apply, val_main_v64_apply, val_main_v63_apply,
    show idx_main_v56 (idx_main_v57 (ix1 j)) = ix2 j (2 : Fin 4) from
        funext fun a => Fin.ext (by match a with | ⟨0, _⟩ => exact Nat.div_one _ | ⟨1, _⟩ => rfl),
    show idx_main_v58 (idx_main_v59 (ix1 j)) = ix2 j (0 : Fin 4) from
        funext fun a => Fin.ext (by match a with | ⟨0, _⟩ => exact Nat.div_one _ | ⟨1, _⟩ => rfl),
    show idx_main_v61 (idx_main_v62 (ix1 j)) = ix2 j (3 : Fin 4) from
        funext fun a => Fin.ext (by match a with | ⟨0, _⟩ => exact Nat.div_one _ | ⟨1, _⟩ => rfl),
    show idx_main_v63 (idx_main_v64 (ix1 j)) = ix2 j (1 : Fin 4) from
        funext fun a => Fin.ext (by match a with | ⟨0, _⟩ => exact Nat.div_one _ | ⟨1, _⟩ => rfl)]
  rfl

/-- Side 0 of the intersection rectangle, clipped at zero. -/
theorem interSide0 (x1 : (⟨S16x1000x4, .f32⟩ : BufTy).Contents (Elt Ideal)) (x2 : (⟨S2048x4, .f32⟩ : BufTy).Contents (Elt Ideal)) (r : Fin 16000) (j : Fin 2048) :
    val_main_v82 (F := Ideal) x1 x2 (ix3 r j (0 : Fin 2))
      = max wZero (min (val_main_v29 (F := Ideal) x1 (ix2 r (2 : Fin 4))) (x2 (ix2 j (2 : Fin 4))) - max (val_main_v29 (F := Ideal) x1 (ix2 r (0 : Fin 4))) (x2 (ix2 j (0 : Fin 4)))) := by
  rw [val_main_v82_apply, val_main_call0_v1_apply, val_main_call0_v0_apply, val_main_cst_8_apply, val_main_v81_apply,
    val_main_v80_apply, val_main_v78_apply, val_main_v75_apply, val_main_v74_apply,
    val_main_v79_apply, val_main_v77_apply, val_main_v76_apply,
    val_main_v73_apply, val_main_v71_apply, val_main_v68_apply, val_main_v67_apply,
    val_main_v72_apply, val_main_v70_apply, val_main_v69_apply,
    show idx_main_v74 (idx_main_v75 (idx_main_v78 (ix3 r j (0 : Fin 2)))) = ix2 r (2 : Fin 4) from funext fun a => Fin.ext (by match a with | ⟨0, _⟩ => rfl | ⟨1, _⟩ => rfl),
    show idx_main_v76 (idx_main_v77 (idx_main_v79 (ix3 r j (0 : Fin 2)))) = ix2 j (2 : Fin 4) from funext fun a => Fin.ext (by match a with | ⟨0, _⟩ => rfl | ⟨1, _⟩ => rfl),
    show idx_main_v67 (idx_main_v68 (idx_main_v71 (ix3 r j (0 : Fin 2)))) = ix2 r (0 : Fin 4) from funext fun a => Fin.ext (by match a with | ⟨0, _⟩ => rfl | ⟨1, _⟩ => rfl),
    show idx_main_v69 (idx_main_v70 (idx_main_v72 (ix3 r j (0 : Fin 2)))) = ix2 j (0 : Fin 4) from funext fun a => Fin.ext (by match a with | ⟨0, _⟩ => rfl | ⟨1, _⟩ => rfl)]
  rfl

/-- Side 1 of the intersection rectangle, clipped at zero. -/
theorem interSide1 (x1 : (⟨S16x1000x4, .f32⟩ : BufTy).Contents (Elt Ideal)) (x2 : (⟨S2048x4, .f32⟩ : BufTy).Contents (Elt Ideal)) (r : Fin 16000) (j : Fin 2048) :
    val_main_v82 (F := Ideal) x1 x2 (ix3 r j (1 : Fin 2))
      = max wZero (min (val_main_v29 (F := Ideal) x1 (ix2 r (3 : Fin 4))) (x2 (ix2 j (3 : Fin 4))) - max (val_main_v29 (F := Ideal) x1 (ix2 r (1 : Fin 4))) (x2 (ix2 j (1 : Fin 4)))) := by
  rw [val_main_v82_apply, val_main_call0_v1_apply, val_main_call0_v0_apply, val_main_cst_8_apply, val_main_v81_apply,
    val_main_v80_apply, val_main_v78_apply, val_main_v75_apply, val_main_v74_apply,
    val_main_v79_apply, val_main_v77_apply, val_main_v76_apply,
    val_main_v73_apply, val_main_v71_apply, val_main_v68_apply, val_main_v67_apply,
    val_main_v72_apply, val_main_v70_apply, val_main_v69_apply,
    show idx_main_v74 (idx_main_v75 (idx_main_v78 (ix3 r j (1 : Fin 2)))) = ix2 r (3 : Fin 4) from funext fun a => Fin.ext (by match a with | ⟨0, _⟩ => rfl | ⟨1, _⟩ => rfl),
    show idx_main_v76 (idx_main_v77 (idx_main_v79 (ix3 r j (1 : Fin 2)))) = ix2 j (3 : Fin 4) from funext fun a => Fin.ext (by match a with | ⟨0, _⟩ => rfl | ⟨1, _⟩ => rfl),
    show idx_main_v67 (idx_main_v68 (idx_main_v71 (ix3 r j (1 : Fin 2)))) = ix2 r (1 : Fin 4) from funext fun a => Fin.ext (by match a with | ⟨0, _⟩ => rfl | ⟨1, _⟩ => rfl),
    show idx_main_v69 (idx_main_v70 (idx_main_v72 (ix3 r j (1 : Fin 2)))) = ix2 j (1 : Fin 4) from funext fun a => Fin.ext (by match a with | ⟨0, _⟩ => rfl | ⟨1, _⟩ => rfl)]
  rfl

/-- The area of the intersection. -/
theorem inter_read (x1 : (⟨S16x1000x4, .f32⟩ : BufTy).Contents (Elt Ideal)) (x2 : (⟨S2048x4, .f32⟩ : BufTy).Contents (Elt Ideal)) (r : Fin 16000) (j : Fin 2048) :
    val_main_v87 (F := Ideal) x1 x2 (ix2 r j)
      = max wZero (min (val_main_v29 (F := Ideal) x1 (ix2 r (2 : Fin 4))) (x2 (ix2 j (2 : Fin 4))) - max (val_main_v29 (F := Ideal) x1 (ix2 r (0 : Fin 4))) (x2 (ix2 j (0 : Fin 4)))) * max wZero (min (val_main_v29 (F := Ideal) x1 (ix2 r (3 : Fin 4))) (x2 (ix2 j (3 : Fin 4))) - max (val_main_v29 (F := Ideal) x1 (ix2 r (1 : Fin 4))) (x2 (ix2 j (1 : Fin 4)))) := by
  have h0 : idx_main_v83 (idx_main_v84 (ix2 r j)) = ix3 r j (0 : Fin 2) :=
    funext fun a => Fin.ext (by
      have hj : j.val < 2048 := j.isLt
      match a with
      | ⟨0, _⟩ => show (r.val * 2048 + j.val) / 2048 = r.val; omega
      | ⟨1, _⟩ => show (r.val * 2048 + j.val) / 1 % 2048 = j.val; omega
      | ⟨2, _⟩ => rfl)
  have h1 : idx_main_v85 (idx_main_v86 (ix2 r j)) = ix3 r j (1 : Fin 2) :=
    funext fun a => Fin.ext (by
      have hj : j.val < 2048 := j.isLt
      match a with
      | ⟨0, _⟩ => show (r.val * 2048 + j.val) / 2048 = r.val; omega
      | ⟨1, _⟩ => show (r.val * 2048 + j.val) / 1 % 2048 = j.val; omega
      | ⟨2, _⟩ => rfl)
  rw [val_main_v87_apply, val_main_v84_apply, val_main_v83_apply, val_main_v86_apply, val_main_v85_apply, h0, h1,
    interSide0, interSide1]
  rfl

/-- The area of the union. -/
theorem union_read (x1 : (⟨S16x1000x4, .f32⟩ : BufTy).Contents (Elt Ideal)) (x2 : (⟨S2048x4, .f32⟩ : BufTy).Contents (Elt Ideal)) (r : Fin 16000) (j : Fin 2048) :
    val_main_v93 (F := Ideal) x1 x2 (ix2 r j)
      = (val_main_v29 (F := Ideal) x1 (ix2 r (2 : Fin 4)) - val_main_v29 (F := Ideal) x1 (ix2 r (0 : Fin 4))) * (val_main_v29 (F := Ideal) x1 (ix2 r (3 : Fin 4)) - val_main_v29 (F := Ideal) x1 (ix2 r (1 : Fin 4))) + (x2 (ix2 j (2 : Fin 4)) - x2 (ix2 j (0 : Fin 4))) * (x2 (ix2 j (3 : Fin 4)) - x2 (ix2 j (1 : Fin 4))) - max wZero (min (val_main_v29 (F := Ideal) x1 (ix2 r (2 : Fin 4))) (x2 (ix2 j (2 : Fin 4))) - max (val_main_v29 (F := Ideal) x1 (ix2 r (0 : Fin 4))) (x2 (ix2 j (0 : Fin 4)))) * max wZero (min (val_main_v29 (F := Ideal) x1 (ix2 r (3 : Fin 4))) (x2 (ix2 j (3 : Fin 4))) - max (val_main_v29 (F := Ideal) x1 (ix2 r (1 : Fin 4))) (x2 (ix2 j (1 : Fin 4)))) := by
  rw [val_main_v93_apply, val_main_v92_apply, val_main_v90_apply, val_main_v88_apply, val_main_v91_apply, val_main_v89_apply,
    show idx_main_v88 (idx_main_v90 (ix2 r j)) = ix1 r from funext fun a => Fin.ext (by match a with | ⟨0, _⟩ => rfl),
    show idx_main_v89 (idx_main_v91 (ix2 r j)) = ix1 j from funext fun a => Fin.ext (by match a with | ⟨0, _⟩ => rfl),
    areaQ_read, areaT_read, inter_read]
  rfl

/-- Side 0 of the smallest enclosing rectangle, clipped at zero. -/
theorem hullSide0 (x1 : (⟨S16x1000x4, .f32⟩ : BufTy).Contents (Elt Ideal)) (x2 : (⟨S2048x4, .f32⟩ : BufTy).Contents (Elt Ideal)) (r : Fin 16000) (j : Fin 2048) :
    val_main_v110 (F := Ideal) x1 x2 (ix3 r j (0 : Fin 2))
      = max wZero (max (val_main_v29 (F := Ideal) x1 (ix2 r (2 : Fin 4))) (x2 (ix2 j (2 : Fin 4))) - min (val_main_v29 (F := Ideal) x1 (ix2 r (0 : Fin 4))) (x2 (ix2 j (0 : Fin 4)))) := by
  rw [val_main_v110_apply, val_main_call1_v1_apply, val_main_call1_v0_apply, val_main_cst_9_apply, val_main_v109_apply,
    val_main_v108_apply, val_main_v106_apply, val_main_v103_apply, val_main_v102_apply,
    val_main_v107_apply, val_main_v105_apply, val_main_v104_apply,
    val_main_v101_apply, val_main_v99_apply, val_main_v96_apply, val_main_v95_apply,
    val_main_v100_apply, val_main_v98_apply, val_main_v97_apply,
    show idx_main_v102 (idx_main_v103 (idx_main_v106 (ix3 r j (0 : Fin 2)))) = ix2 r (2 : Fin 4) from funext fun a => Fin.ext (by match a with | ⟨0, _⟩ => rfl | ⟨1, _⟩ => rfl),
    show idx_main_v104 (idx_main_v105 (idx_main_v107 (ix3 r j (0 : Fin 2)))) = ix2 j (2 : Fin 4) from funext fun a => Fin.ext (by match a with | ⟨0, _⟩ => rfl | ⟨1, _⟩ => rfl),
    show idx_main_v95 (idx_main_v96 (idx_main_v99 (ix3 r j (0 : Fin 2)))) = ix2 r (0 : Fin 4) from funext fun a => Fin.ext (by match a with | ⟨0, _⟩ => rfl | ⟨1, _⟩ => rfl),
    show idx_main_v97 (idx_main_v98 (idx_main_v100 (ix3 r j (0 : Fin 2)))) = ix2 j (0 : Fin 4) from funext fun a => Fin.ext (by match a with | ⟨0, _⟩ => rfl | ⟨1, _⟩ => rfl)]
  rfl

/-- Side 1 of the smallest enclosing rectangle, clipped at zero. -/
theorem hullSide1 (x1 : (⟨S16x1000x4, .f32⟩ : BufTy).Contents (Elt Ideal)) (x2 : (⟨S2048x4, .f32⟩ : BufTy).Contents (Elt Ideal)) (r : Fin 16000) (j : Fin 2048) :
    val_main_v110 (F := Ideal) x1 x2 (ix3 r j (1 : Fin 2))
      = max wZero (max (val_main_v29 (F := Ideal) x1 (ix2 r (3 : Fin 4))) (x2 (ix2 j (3 : Fin 4))) - min (val_main_v29 (F := Ideal) x1 (ix2 r (1 : Fin 4))) (x2 (ix2 j (1 : Fin 4)))) := by
  rw [val_main_v110_apply, val_main_call1_v1_apply, val_main_call1_v0_apply, val_main_cst_9_apply, val_main_v109_apply,
    val_main_v108_apply, val_main_v106_apply, val_main_v103_apply, val_main_v102_apply,
    val_main_v107_apply, val_main_v105_apply, val_main_v104_apply,
    val_main_v101_apply, val_main_v99_apply, val_main_v96_apply, val_main_v95_apply,
    val_main_v100_apply, val_main_v98_apply, val_main_v97_apply,
    show idx_main_v102 (idx_main_v103 (idx_main_v106 (ix3 r j (1 : Fin 2)))) = ix2 r (3 : Fin 4) from funext fun a => Fin.ext (by match a with | ⟨0, _⟩ => rfl | ⟨1, _⟩ => rfl),
    show idx_main_v104 (idx_main_v105 (idx_main_v107 (ix3 r j (1 : Fin 2)))) = ix2 j (3 : Fin 4) from funext fun a => Fin.ext (by match a with | ⟨0, _⟩ => rfl | ⟨1, _⟩ => rfl),
    show idx_main_v95 (idx_main_v96 (idx_main_v99 (ix3 r j (1 : Fin 2)))) = ix2 r (1 : Fin 4) from funext fun a => Fin.ext (by match a with | ⟨0, _⟩ => rfl | ⟨1, _⟩ => rfl),
    show idx_main_v97 (idx_main_v98 (idx_main_v100 (ix3 r j (1 : Fin 2)))) = ix2 j (1 : Fin 4) from funext fun a => Fin.ext (by match a with | ⟨0, _⟩ => rfl | ⟨1, _⟩ => rfl)]
  rfl

/-- The area of the smallest enclosing rectangle. -/
theorem hull_read (x1 : (⟨S16x1000x4, .f32⟩ : BufTy).Contents (Elt Ideal)) (x2 : (⟨S2048x4, .f32⟩ : BufTy).Contents (Elt Ideal)) (r : Fin 16000) (j : Fin 2048) :
    val_main_v115 (F := Ideal) x1 x2 (ix2 r j)
      = max wZero (max (val_main_v29 (F := Ideal) x1 (ix2 r (2 : Fin 4))) (x2 (ix2 j (2 : Fin 4))) - min (val_main_v29 (F := Ideal) x1 (ix2 r (0 : Fin 4))) (x2 (ix2 j (0 : Fin 4)))) * max wZero (max (val_main_v29 (F := Ideal) x1 (ix2 r (3 : Fin 4))) (x2 (ix2 j (3 : Fin 4))) - min (val_main_v29 (F := Ideal) x1 (ix2 r (1 : Fin 4))) (x2 (ix2 j (1 : Fin 4)))) := by
  have h0 : idx_main_v111 (idx_main_v112 (ix2 r j)) = ix3 r j (0 : Fin 2) :=
    funext fun a => Fin.ext (by
      have hj : j.val < 2048 := j.isLt
      match a with
      | ⟨0, _⟩ => show (r.val * 2048 + j.val) / 2048 = r.val; omega
      | ⟨1, _⟩ => show (r.val * 2048 + j.val) / 1 % 2048 = j.val; omega
      | ⟨2, _⟩ => rfl)
  have h1 : idx_main_v113 (idx_main_v114 (ix2 r j)) = ix3 r j (1 : Fin 2) :=
    funext fun a => Fin.ext (by
      have hj : j.val < 2048 := j.isLt
      match a with
      | ⟨0, _⟩ => show (r.val * 2048 + j.val) / 2048 = r.val; omega
      | ⟨1, _⟩ => show (r.val * 2048 + j.val) / 1 % 2048 = j.val; omega
      | ⟨2, _⟩ => rfl)
  rw [val_main_v115_apply, val_main_v112_apply, val_main_v111_apply, val_main_v114_apply, val_main_v113_apply, h0, h1,
    hullSide0, hullSide1]
  rfl

/-- The generalized IoU at `(r, j)`. -/
theorem giou_read (x1 : (⟨S16x1000x4, .f32⟩ : BufTy).Contents (Elt Ideal)) (x2 : (⟨S2048x4, .f32⟩ : BufTy).Contents (Elt Ideal)) (r : Fin 16000) (j : Fin 2048) :
    val_main_v118 (F := Ideal) x1 x2 (ix2 r j)
      = Ideal.div (max wZero (min (val_main_v29 (F := Ideal) x1 (ix2 r (2 : Fin 4))) (x2 (ix2 j (2 : Fin 4))) - max (val_main_v29 (F := Ideal) x1 (ix2 r (0 : Fin 4))) (x2 (ix2 j (0 : Fin 4)))) * max wZero (min (val_main_v29 (F := Ideal) x1 (ix2 r (3 : Fin 4))) (x2 (ix2 j (3 : Fin 4))) - max (val_main_v29 (F := Ideal) x1 (ix2 r (1 : Fin 4))) (x2 (ix2 j (1 : Fin 4))))) ((val_main_v29 (F := Ideal) x1 (ix2 r (2 : Fin 4)) - val_main_v29 (F := Ideal) x1 (ix2 r (0 : Fin 4))) * (val_main_v29 (F := Ideal) x1 (ix2 r (3 : Fin 4)) - val_main_v29 (F := Ideal) x1 (ix2 r (1 : Fin 4))) + (x2 (ix2 j (2 : Fin 4)) - x2 (ix2 j (0 : Fin 4))) * (x2 (ix2 j (3 : Fin 4)) - x2 (ix2 j (1 : Fin 4))) - max wZero (min (val_main_v29 (F := Ideal) x1 (ix2 r (2 : Fin 4))) (x2 (ix2 j (2 : Fin 4))) - max (val_main_v29 (F := Ideal) x1 (ix2 r (0 : Fin 4))) (x2 (ix2 j (0 : Fin 4)))) * max wZero (min (val_main_v29 (F := Ideal) x1 (ix2 r (3 : Fin 4))) (x2 (ix2 j (3 : Fin 4))) - max (val_main_v29 (F := Ideal) x1 (ix2 r (1 : Fin 4))) (x2 (ix2 j (1 : Fin 4)))))
        - Ideal.div (max wZero (max (val_main_v29 (F := Ideal) x1 (ix2 r (2 : Fin 4))) (x2 (ix2 j (2 : Fin 4))) - min (val_main_v29 (F := Ideal) x1 (ix2 r (0 : Fin 4))) (x2 (ix2 j (0 : Fin 4)))) * max wZero (max (val_main_v29 (F := Ideal) x1 (ix2 r (3 : Fin 4))) (x2 (ix2 j (3 : Fin 4))) - min (val_main_v29 (F := Ideal) x1 (ix2 r (1 : Fin 4))) (x2 (ix2 j (1 : Fin 4)))) - ((val_main_v29 (F := Ideal) x1 (ix2 r (2 : Fin 4)) - val_main_v29 (F := Ideal) x1 (ix2 r (0 : Fin 4))) * (val_main_v29 (F := Ideal) x1 (ix2 r (3 : Fin 4)) - val_main_v29 (F := Ideal) x1 (ix2 r (1 : Fin 4))) + (x2 (ix2 j (2 : Fin 4)) - x2 (ix2 j (0 : Fin 4))) * (x2 (ix2 j (3 : Fin 4)) - x2 (ix2 j (1 : Fin 4))) - max wZero (min (val_main_v29 (F := Ideal) x1 (ix2 r (2 : Fin 4))) (x2 (ix2 j (2 : Fin 4))) - max (val_main_v29 (F := Ideal) x1 (ix2 r (0 : Fin 4))) (x2 (ix2 j (0 : Fin 4)))) * max wZero (min (val_main_v29 (F := Ideal) x1 (ix2 r (3 : Fin 4))) (x2 (ix2 j (3 : Fin 4))) - max (val_main_v29 (F := Ideal) x1 (ix2 r (1 : Fin 4))) (x2 (ix2 j (1 : Fin 4)))))) (max wZero (max (val_main_v29 (F := Ideal) x1 (ix2 r (2 : Fin 4))) (x2 (ix2 j (2 : Fin 4))) - min (val_main_v29 (F := Ideal) x1 (ix2 r (0 : Fin 4))) (x2 (ix2 j (0 : Fin 4)))) * max wZero (max (val_main_v29 (F := Ideal) x1 (ix2 r (3 : Fin 4))) (x2 (ix2 j (3 : Fin 4))) - min (val_main_v29 (F := Ideal) x1 (ix2 r (1 : Fin 4))) (x2 (ix2 j (1 : Fin 4))))) := by
  rw [val_main_v118_apply, val_main_v94_apply, val_main_v117_apply, val_main_v116_apply, inter_read, union_read, hull_read]
  rfl

/-! ## The cost at one entry -/

theorem ref_cost (x0 : (⟨S16x1000x91, .f32⟩ : BufTy).Contents (Elt Ideal)) (x1 : (⟨S16x1000x4, .f32⟩ : BufTy).Contents (Elt Ideal))
    (x2 : (⟨S2048x4, .f32⟩ : BufTy).Contents (Elt Ideal)) (x3 : (⟨S2048, .i32⟩ : BufTy).Contents (Elt Ideal))
    (hid : ∀ j : Fin 2048, (x3 (ix1 j)).toNat < 91) (r : Fin 16000) (j : Fin 2048) :
    val_main_v127 (F := Ideal) x0 x1 x2 x3 (ix2 r j)
      = boxCost (fun k => val_main_v12 (F := Ideal) x1 (ix2 r k)) (fun k => x2 (ix2 j k))
          (-(softmax (fun c => val_main_v0 (F := Ideal) x0 (ix2 r c)) ⟨(x3 (ix1 j)).toNat, hid j⟩)) := by
  rw [val_main_v127_apply, val_main_v124_apply, val_main_v121_apply, val_main_v120_apply, val_main_cst_10_apply,
    val_main_v123_apply, val_main_v122_apply, val_main_cst_11_apply, val_main_v37_apply,
    val_main_v126_apply, val_main_v125_apply, val_main_cst_12_apply, val_main_v119_apply,
    l1_read, gather_read x0 x3 hid, softmax_read, giou_read, corner0, corner1, corner2, corner3]
  rfl

end Cert.RefCost

end
-- ==== Proof.PreDecode.lean ====
import proofs.«418606_j32384053412636_1_alg».proof.Pre_finite_inputs
import Idealize.ShloMosaic.Lib.ReduceAll
import Idealize.ShloMosaic.Lib.ValueIdx

noncomputable section

/-!
  The precondition read at one label. Beside the finiteness of the float inputs it says, of every label `w`, that
  `0 ≤ w` and `w < 91` as signed words; such a word is below 91 as an unsigned number, so it names a class.
-/

namespace Cert.PreDecode

open Idealize.ShloMosaic Idealize.ShloMosaic.ValueIdx Cert.Pre_finite_inputs

theorem ofBool_eq_one (b : Bool) : BitVec.ofBool b = 1#1 ↔ b = true := by cases b <;> decide

/-- A word in [0, n) signed is below n unsigned. -/
theorem toNat_lt (w : BitVec 32) (n : Nat) (hn : n < 2 ^ 31) (h0 : IntOp.cmpi .sge w (0#32) = 1#1)
    (h1 : IntOp.cmpi .slt w (BitVec.ofNat 32 n) = 1#1) : w.toNat < n := by
  unfold IntOp.cmpi at h0 h1
  rw [ofBool_eq_one] at h0 h1
  simp only [BitVec.slt, BitVec.sle, decide_eq_true_eq] at h0 h1
  have h32 := w.isLt
  unfold BitVec.toInt at h0 h1
  split at h1 <;> simp at h0 h1 <;> omega

instance : Subsingleton S_.Idx := ⟨fun a b => funext fun d => d.elim0⟩

variable [Facts]

/-- Under the precondition every label is below 91. -/
theorem label_lt {F : FTy → Type} [FloatOps F] (a0 : FVec F S16x1000x91 .f32) (a1 : FVec F S16x1000x4 .f32)
    (a2 : FVec F S2048x4 .f32) (a3 : IVec S2048 32) (h : fn (F := F) a0 a1 a2 a3 = fun _ => 1#1) (j : Fin 2048) :
    (a3 (ix1 j)).toNat < 91 := by
  have e := congrFun h ix0
  unfold fn fn_part1 at e
  dsimp only at e
  have e2 := (IntOp.andi_eq_one.1 e).2
  have e3 := Host.reduce_andi_all _ _ _ _ _ e2 (ix1 j)
  obtain ⟨hge, hlt⟩ := IntOp.andi_eq_one.1 e3
  exact toNat_lt _ 91 (by decide) hge hlt

end Cert.PreDecode

end
-- ==== Proof.lean ====
/-
  The matching cost of a DETR-style Hungarian matcher: for 16000 query rows (class logits over 91 classes and a
  cxcywh box each) and 2048 targets (a class label and an xyxy box each), the [16, 1000, 2048] array of
    5 · ‖xyxy(query box) − target box‖₁ − softmax(query logits)[target label] − 2 · GIoU(query box, target box).

  The kernel computes a 1000 × 512 tile of the flattened [16000, 2048] matrix per grid point; its class term is the
  product of the softmax tile with a one-hot table of the labels. The reference gathers the softmax columns at the
  labels. Over the extended reals both are the same function of the arguments once every label lies in [0, 91): then
  column j of the one-hot table has its single 1 at label j, so the product's sum over the classes is the one
  probability the gather reads. No law of real arithmetic beyond x · 1 = x, x · 0 = 0, 0 + x = x and 0 − x = −x is
  used, so the finiteness of the float inputs is never opened; the label range is.

  Modules: Spec (the cost of one pair on the extended reals), PayBox / PayClass / PayOut (the kernel body's stored tile
  read at one entry), KernelArray (the 64 tiles cover the matrix), KernelRun (the host lines around the region and the
  kernel's run), RefCost (the reference's matrix read at one entry), PreDecode (the precondition read at one label).
-/
import proofs.«418606_j32384053412636_1_alg».proof.Defs
import proofs.«418606_j32384053412636_1_alg».proof.Proof.Gen.Kernel
import proofs.«418606_j32384053412636_1_alg».proof.Proof.Gen.Kernel.Skeleton
import proofs.«418606_j32384053412636_1_alg».proof.Proof.Gen.Kernel.Launch
import proofs.«418606_j32384053412636_1_alg».proof.Proof.Gen.Kernel.Points
import proofs.«418606_j32384053412636_1_alg».proof.Proof.Gen.Kernel.Frame
import proofs.«418606_j32384053412636_1_alg».proof.Proof.Gen.KernelIdeal
import proofs.«418606_j32384053412636_1_alg».proof.Proof.Gen.KernelIdeal.Skeleton
import proofs.«418606_j32384053412636_1_alg».proof.Proof.Gen.KernelIdeal.Launch
import proofs.«418606_j32384053412636_1_alg».proof.Proof.Gen.KernelIdeal.Points
import proofs.«418606_j32384053412636_1_alg».proof.Proof.Gen.KernelIdeal.Frame
import proofs.«418606_j32384053412636_1_alg».proof.Proof.Gen.ReferenceIdeal
import proofs.«418606_j32384053412636_1_alg».proof.Proof.Gen.ReferenceIdeal.Run
import proofs.«418606_j32384053412636_1_alg».proof.Proof.Gen.ReferenceIdeal.Read
import proofs.«418606_j32384053412636_1_alg».proof.Proof.Gen.Pre_finite_inputs
import proofs.«418606_j32384053412636_1_alg».proof.Proof.KernelRun
import proofs.«418606_j32384053412636_1_alg».proof.Proof.RefCost
import proofs.«418606_j32384053412636_1_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference, a host program, runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reshaped cost matrix: entry by entry the kernel's tile value and the reference's
    gathered value are the cost of the same (query, target) pair. -/
theorem algebraic : Cert.algebraic_KernelIdeal_ReferenceIdeal := by
  intro m ρ m' ρ' hpre hagree
  have hid : ∀ (c : Dev Cert.KernelIdeal.nD) (j : Fin 2048),
      (m ((c.tc : Thread Cert.KernelIdeal.nD Cert.KernelIdeal.τ).loc Cert.KernelIdeal.main_arg3) (ix1 j)).toNat < 91 :=
    fun c j => Cert.PreDecode.label_lt _ _ _ _ (hpre c) j
  refine ⟨_, Cert.KernelIdeal.CostValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v128_eq, (hagree c).1, (hagree c).2.1, (hagree c).2.2.1, (hagree c).2.2.2]
  unfold Cert.ReferenceIdeal.Read.val_main_v128
  refine congrArg (fun X => shapeCast _ X Cert.ReferenceIdeal.Facts₀.shapeCasts_S16000x2048_S16x1000x2048) (funext fun i => ?_)
  obtain ⟨r, j, rfl⟩ : ∃ (r : Fin 16000) (j : Fin 2048), i = ix2 r j := ⟨i 0, i 1, eq_ix2 i⟩
  refine (Cert.RefCost.ref_cost _ _ _ _ (hid c) r j).trans ?_
  exact (Cert.KernelIdeal.CostValue.entry m c (hid c) r j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
